-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S128x11008 : Shape := ⟨2, ![128, 11008]⟩
abbrev S1x11008 : Shape := ⟨2, ![1, 11008]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1x11008 : S_.BroadcastsInDim S1x11008 (![] : Fin 0 → Fin S1x11008.rank)
  reducesTo_S1x11008_S_d0_1 : S1x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S512x11008 32) (main_arg2 : IVec S128x11008 32) (main_arg3 : FVec F S1x11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1x11008 .f32 := Host.absf main_arg3
  let main_cst_0 : FVec F S_ .f32 := constant S_ .f32 0x7F800000#32
  let main_v5 : FVec F S1x11008 .f32 := broadcastInDim S1x11008 ![] bcast_S_S1x11008 main_cst_0
  let main_v6 : IVec S1x11008 1 := cmpf .olt main_v4 main_v5
  let main_c_1 : IVec S_ 1 := constantI S_ 1 1#1
  let main_v7 : IVec S_ 1 := (fun x v => Host.reduce IntOp.andi x v reducesTo_S1x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S512x11008 : Shape := ⟨2, ![512, 11008]⟩
abbrev S128x11008 : Shape := ⟨2, ![128, 11008]⟩
abbrev S1x11008 : Shape := ⟨2, ![1, 11008]⟩
abbrev S11008 : Shape := ⟨1, ![11008]⟩
abbrev S8192x4096 : Shape := ⟨2, ![8192, 4096]⟩
abbrev S8192x11008 : Shape := ⟨2, ![8192, 11008]⟩
abbrev S1024x4096 : Shape := ⟨2, ![1024, 4096]⟩
abbrev S512x256 : Shape := ⟨2, ![512, 256]⟩
abbrev S128x256 : Shape := ⟨2, ![128, 256]⟩
abbrev S1x256 : Shape := ⟨2, ![1, 256]⟩
abbrev S1024x256 : Shape := ⟨2, ![1024, 256]⟩
abbrev S4096x256 : Shape := ⟨2, ![4096, 256]⟩
abbrev S512x1x256 : Shape := ⟨3, ![512, 1, 256]⟩
abbrev S512x8x256 : Shape := ⟨3, ![512, 8, 256]⟩
abbrev S128x1x256 : Shape := ⟨3, ![128, 1, 256]⟩
abbrev S128x32x256 : Shape := ⟨3, ![128, 32, 256]⟩
abbrev S4x2048x11008 : Shape := ⟨3, ![4, 2048, 11008]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S128x11008, .i32⟩
  | .hbm, ⟨3, _⟩ => ⟨S1x11008, .f32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S1x11008, .f32⟩
  | .hbm, ⟨8, _⟩ => ⟨S8192x11008, .f32⟩
  | .hbm, ⟨9, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S128x256, .i32⟩
  | .local _ .vmem, ⟨5, _⟩ => ⟨S128x256, .i32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S4096x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x1x256 : S512x256.ShapeCasts S512x1x256
  concatenates_S512x1x256_S512x1x256_S512x1x256_S512x1x256_S512x1x256_S512x1x256_S512x1x256_S512x1x256_S512x8x256_d1 : Shape.Concatenates [S512x1x256, S512x1x256, S512x1x256, S512x1x256, S512x1x256, S512x1x256, S512x1x256, S512x1x256] S512x8x256 1
  shapeCasts_S512x8x256_S4096x256 : S512x8x256.ShapeCasts S4096x256
  inb_S128x256_S128x256_0_0 : ∀ a, (![0, 0] : Fin 2 → Nat) a + S128x256.size a ≤ S128x256.size a
  h_S128x256 : 0 < S128x256.numel
  shapeCasts_S128x256_S128x1x256 : S128x256.ShapeCasts S128x1x256
  concatenates_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x1x256_S128x32x256_d1 : Shape.Concatenates [S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256, S128x1x256] S128x32x256 1
  shapeCasts_S128x32x256_S4096x256 : S128x32x256.ShapeCasts S4096x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x11008.size a
  hwx0_2 : ∀ i : grid0.Coords, EltTy.bits .i32 = 32 ∨ (Rect.block (s := S128x11008) S128x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S128x11008 : Shape := ⟨2, ![128, 11008]⟩
abbrev S1x11008 : Shape := ⟨2, ![1, 11008]⟩
abbrev S11008 : Shape := ⟨1, ![11008]⟩
abbrev S16 : Shape := ⟨1, ![16]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S512x8x11008x1 : Shape := ⟨4, ![512, 8, 11008, 1]⟩
abbrev S4096x11008 : Shape := ⟨2, ![4096, 11008]⟩
abbrev S32 : Shape := ⟨1, ![32]⟩
abbrev S128x1x11008 : Shape := ⟨3, ![128, 1, 11008]⟩
abbrev S1x32x1 : Shape := ⟨3, ![1, 32, 1]⟩
abbrev S128x32x11008 : Shape := ⟨3, ![128, 32, 11008]⟩
abbrev S8192x4096 : Shape := ⟨2, ![8192, 4096]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S128x11008, .i32⟩
  | .hbm, ⟨3, _⟩ => ⟨S1x11008, .f32⟩
  | .hbm, ⟨4, _⟩ => ⟨S11008, .f32⟩
  | .hbm, ⟨5, _⟩ => ⟨S16, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S512x1x11008, .i32⟩
  | .hbm, ⟨14, _⟩ => ⟨S1x8x1, .i32⟩
  | .hbm, ⟨15, _⟩ => ⟨S512x8x11008, .i32⟩
  | .hbm, ⟨16, _⟩ => ⟨S512x8x11008, .i32⟩
  | .hbm, ⟨17, _⟩ => ⟨S512x8x11008, .i32⟩
  | .hbm, ⟨18, _⟩ => ⟨S_, .i32⟩
  | .hbm, ⟨19, _⟩ => ⟨S512x8x11008, .i32⟩
  | .hbm, ⟨20, _⟩ => ⟨S512x8x11008, .i32⟩
  | .hbm, ⟨21, _⟩ => ⟨S_, .i32⟩
  | .hbm, ⟨22, _⟩ => ⟨S512x8x11008, .i32⟩
  | .hbm, ⟨23, _⟩ => ⟨S512x8x11008, .i1⟩
  | .hbm, ⟨24, _⟩ => ⟨S_, .i32⟩
  | .hbm, ⟨25, _⟩ => ⟨S512x8x11008, .i32⟩
  | .hbm, ⟨26, _⟩ => ⟨S512x8x11008, .i32⟩
  | .hbm, ⟨27, _⟩ => ⟨S512x8x11008, .i32⟩
  | .hbm, ⟨28, _⟩ => ⟨S512x8x11008x1, .i32⟩
  | .hbm, ⟨29, _⟩ => ⟨S512x8x11008, .f32⟩
  | .hbm, ⟨30, _⟩ => ⟨S4096x11008, .f32⟩
  | .hbm, ⟨31, _⟩ => ⟨S32, .i32⟩
  | .hbm, ⟨32, _⟩ => ⟨S128x1x11008, .i32⟩
  | .hbm, ⟨33, _⟩ => ⟨S1x32x1, .i32⟩
  | .hbm, ⟨34, _⟩ => ⟨S128x32x11008, .i32⟩
  | .hbm, ⟨35, _⟩ => ⟨S128x32x11008, .i32⟩
  | .hbm, ⟨36, _⟩ => ⟨S128x32x11008, .i32⟩
  | .hbm, ⟨37, _⟩ => ⟨S_, .i32⟩
  | .hbm, ⟨38, _⟩ => ⟨S128x32x11008, .i32⟩
  | .hbm, ⟨39, _⟩ => ⟨S128x32x11008, .i32⟩
  | .hbm, ⟨40, _⟩ => ⟨S4096x11008, .i32⟩
  | .hbm, ⟨41, _⟩ => ⟨S4096x11008, .f32⟩
  | .hbm, ⟨42, _⟩ => ⟨S4096x11008, .f32⟩
  | .hbm, ⟨43, _⟩ => ⟨S_, .i32⟩
  | .hbm, ⟨44, _⟩ => ⟨S4096x11008, .i32⟩
  | .hbm, ⟨45, _⟩ => ⟨S4096x11008, .i1⟩
  | .hbm, ⟨46, _⟩ => ⟨S4096x11008, .f32⟩
  | .hbm, ⟨47, _⟩ => ⟨S4096x11008, .f32⟩
  | .hbm, ⟨48, _⟩ => ⟨S8192x4096, .f32⟩
  | .hbm, ⟨49, _⟩ => ⟨S8192x11008, .f32⟩
  | .hbm, ⟨50, _⟩ => ⟨S4x2048x11008, .f32⟩
  | .hbm, ⟨51, _⟩ => ⟨S1x1x11008, .f32⟩
  | .hbm, ⟨52, _⟩ => ⟨S4x2048x11008, .f32⟩
  | .hbm, ⟨53, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  bcast_S512x8x11008_S512x8x11008x1_0_1_2 : S512x8x11008.BroadcastsInDim S512x8x11008x1 (![0, 1, 2] : Fin 3 → Fin S512x8x11008x1.rank)
  shapeCasts_S512x8x11008_S4096x11008 : S512x8x11008.ShapeCasts S4096x11008
  bcast_S128x11008_S128x1x11008_0_2 : S128x11008.BroadcastsInDim S128x1x11008 (![0, 2] : Fin 2 → Fin S128x1x11008.rank)
  bcast_S32_S1x32x1_1 : S32.BroadcastsInDim S1x32x1 (![1] : Fin 1 → Fin S1x32x1.rank)
  bcast_S128x1x11008_S128x32x11008_0_1_2 : S128x1x11008.BroadcastsInDim S128x32x11008 (![0, 1, 2] : Fin 3 → Fin S128x32x11008.rank)
  bcast_S1x32x1_S128x32x11008_0_1_2 : S1x32x1.BroadcastsInDim S128x32x11008 (![0, 1, 2] : Fin 3 → Fin S128x32x11008.rank)
  bcast_S_S128x32x11008 : S_.BroadcastsInDim S128x32x11008 (![] : Fin 0 → Fin S128x32x11008.rank)
  shapeCasts_S128x32x11008_S4096x11008 : S128x32x11008.ShapeCasts S4096x11008
  bcast_S1x11008_S4096x11008_0_1 : S1x11008.BroadcastsInDim S4096x11008 (![0, 1] : Fin 2 → Fin S4096x11008.rank)
  bcast_S_S4096x11008 : S_.BroadcastsInDim S4096x11008 (![] : Fin 0 → Fin S4096x11008.rank)
  shapeCasts_S4x2048x4096_S8192x4096 : S4x2048x4096.ShapeCasts S8192x4096
  shapeCasts_S8192x11008_S4x2048x11008 : S8192x11008.ShapeCasts S4x2048x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S16_S512x8x11008x1_S512x8x11008_n_0_n_n_0_3_1_wf : GatherDims.WF S16 S512x8x11008x1 S512x8x11008 [] [0] [] [0] [] 3 ![1]
  dot_S8192x4096_S4096x11008_S8192x11008_1_0_0_1_n_n_wf : DotDims.WF S8192x4096 S4096x11008 S8192x11008 [1] [0] [0] [1] [] []

variable [Facts₀]

def gather_S16_S512x8x11008x1_S512x8x11008_n_0_n_n_0_3_1 : GatherDims S16 S512x8x11008x1 S512x8x11008 where
  offsetDims := []
  collapsedSliceDims := [0]
  operandBatchingDims := []
  startIndicesBatchingDims := []
  startIndexMap := [0]
  indexVectorDim := 3
  sliceSizes := ![1]
  wf := gather_S16_S512x8x11008x1_S512x8x11008_n_0_n_n_0_3_1_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The mathematics both programs compute, stated once and over no program.

  A weight matrix of 4096 x 11008 reals is stored packed: row k, column n has a 4-bit code in nibble k mod 8 of the
  32-bit word qweight[k / 8, n], a sign in bit k mod 32 of sign_map[k / 32, n], and a per-column scale scales[0, n].
  The code selects one of sixteen magnitudes (0, 0.5, ..., 3.5, 4, 5, 6, 7, 8, 10, 12, 14); the weight is the
  magnitude times the scale, negated when the sign bit is set. The result is x (viewed as 8192 rows of 4096) times
  that matrix, plus the bias along columns.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

variable {F : FTy → Type} [FloatOps F]

/-- The 4-bit code in nibble `s` of a packed word: shift right by 4s (sign-filling), keep the low four bits. -/
def nib (x : BitVec 32) (s : Nat) : BitVec 32 := (x.sshiftRight (4 * s)) &&& 15#32

/-- Bit `b` of a packed word, as the word 0 or 1. -/
def sbit (x : BitVec 32) (b : Nat) : BitVec 32 := (x.sshiftRight b) &&& 1#32

/-- The magnitude a code stands for: sixteen selections, the last one tested first; a code outside 0..15 gives 0. -/
def magOf (w : BitVec 32) : F .f32 :=
  Scalar.select (IntOp.cmpi .eq w 15#32) (Scalar.ofBits .f32 0x41600000#32) <|
  Scalar.select (IntOp.cmpi .eq w 14#32) (Scalar.ofBits .f32 0x41400000#32) <|
  Scalar.select (IntOp.cmpi .eq w 13#32) (Scalar.ofBits .f32 0x41200000#32) <|
  Scalar.select (IntOp.cmpi .eq w 12#32) (Scalar.ofBits .f32 0x41000000#32) <|
  Scalar.select (IntOp.cmpi .eq w 11#32) (Scalar.ofBits .f32 0x40E00000#32) <|
  Scalar.select (IntOp.cmpi .eq w 10#32) (Scalar.ofBits .f32 0x40C00000#32) <|
  Scalar.select (IntOp.cmpi .eq w 9#32) (Scalar.ofBits .f32 0x40A00000#32) <|
  Scalar.select (IntOp.cmpi .eq w 8#32) (Scalar.ofBits .f32 0x40800000#32) <|
  Scalar.select (IntOp.cmpi .eq w 7#32) (Scalar.ofBits .f32 0x40600000#32) <|
  Scalar.select (IntOp.cmpi .eq w 6#32) (Scalar.ofBits .f32 0x40400000#32) <|
  Scalar.select (IntOp.cmpi .eq w 5#32) (Scalar.ofBits .f32 0x40200000#32) <|
  Scalar.select (IntOp.cmpi .eq w 4#32) (Scalar.ofBits .f32 0x40000000#32) <|
  Scalar.select (IntOp.cmpi .eq w 3#32) (Scalar.ofBits .f32 0x3FC00000#32) <|
  Scalar.select (IntOp.cmpi .eq w 2#32) (Scalar.ofBits .f32 0x3F800000#32) <|
  Scalar.select (IntOp.cmpi .eq w 1#32) (Scalar.ofBits .f32 0x3F000000#32) <|
  Scalar.select (IntOp.cmpi .eq w 0#32) (Scalar.ofBits .f32 0x00000000#32) <|
  Scalar.ofBits .f32 0x00000000#32

/-- The sign factor of a sign bit: -1 when the bit is 1, else 1. -/
def sgnOf (b : BitVec 32) : F .f32 :=
  Scalar.select (IntOp.cmpi .eq b 1#32) (Scalar.ofBits .f32 0xBF800000#32) (Scalar.ofBits .f32 0x3F800000#32)

/-- One weight over the extended reals, from its two packed words and its scale: magnitude times scale, negated when
    the sign bit is set. -/
def wt (q g : BitVec 32) (sc : EReal) (s b : Nat) : EReal :=
  if sbit g b = 1#32 then -((magOf (F := Ideal) (nib q s) : EReal) * sc) else (magOf (F := Ideal) (nib q s) : EReal) * sc

abbrev SX : Shape := ⟨3, ![4, 2048, 4096]⟩
abbrev SQ : Shape := ⟨2, ![512, 11008]⟩
abbrev SG : Shape := ⟨2, ![128, 11008]⟩
abbrev SC : Shape := ⟨2, ![1, 11008]⟩
abbrev SB : Shape := ⟨1, ![11008]⟩
abbrev SO : Shape := ⟨3, ![4, 2048, 11008]⟩

/-- The weight at row `k`, column `n`, from the packed arrays. -/
def Wt (qw : SQ.Idx → BitVec 32) (sg : SG.Idx → BitVec 32) (sc : SC.Idx → EReal) (k : Fin 4096) (n : Fin 11008) : EReal :=
  wt (qw (ix2 (⟨k.val / 8, by omega⟩ : Fin 512) n)) (sg (ix2 (⟨k.val / 32, by omega⟩ : Fin 128) n)) (sc (ix2 (0 : Fin 1) n))
    (k.val % 8) (k.val % 32)

/-- The result: at (a, b, n), the sum over k of x[a, b, k] times the weight at (k, n), plus bias[n]. -/
def Out (x : SX.Idx → EReal) (qw : SQ.Idx → BitVec 32) (sg : SG.Idx → BitVec 32) (sc : SC.Idx → EReal) (bias : SB.Idx → EReal) :
    SO.Idx → EReal :=
  fun i => (∑ k : Fin 4096, x (ix3 (i 0) (i 1) k) * Wt qw sg sc k (i 2)) + bias (ix1 (i 2))

end Cert.Dequant

end
-- ==== Proof.KBlocks.lean ====
/-
  The kernel's windows against the argument arrays. Grid point t = 8n + r is column block n (256 columns), row block r
  (1024 rows). The x window's block at t is rows 1024r .. 1024r + 1023 of x read as 8192 x 4096 (all 4096 columns);
  the code, sign, scale and bias windows' blocks are columns 256n .. 256n + 255 of their arrays (all rows); the output
  window's block is rows 1024r .., columns 256n .. of the 8192 x 11008 result. Before the region the host lays x out
  as 8192 x 4096 (row 2048a + b is x[a, b, :]; the narrowing of the float format is the identity on extended reals)
  and the bias as 1 x 11008.
-/
import proofs.«404938_j16003048145696_2_alg».proof.Proof.Gen.KernelIdeal.Frame
import proofs.«404938_j16003048145696_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

set_option maxRecDepth 16384

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.Dequant

variable (m : (ℓ : Loc nD τ sig) → Buf (Elt Ideal) ℓ)

/-- The grid has 43 x 8 = 344 points. -/
theorem tlt (t : Fin cfg0.N) : t.val < 344 := lt_of_lt_of_eq t.isLt N_0

/-! ## The argument arrays, at their literal types -/

abbrev xA (c : Dev nD) : Vec Ideal S4x2048x4096 .f32 := m ((c.tc : Thread nD τ).loc main_arg0)
abbrev qA (c : Dev nD) : Vec Ideal S512x11008 .i32 := m ((c.tc : Thread nD τ).loc main_arg1)
abbrev gA (c : Dev nD) : Vec Ideal S128x11008 .i32 := m ((c.tc : Thread nD τ).loc main_arg2)
abbrev sA (c : Dev nD) : Vec Ideal S1x11008 .f32 := m ((c.tc : Thread nD τ).loc main_arg3)
abbrev bA (c : Dev nD) : Vec Ideal S11008 .f32 := m ((c.tc : Thread nD τ).loc main_arg4)

/-- Row 1024 (t mod 8) + r of the 8192: the row of x that row r of point t's block is. -/
abbrev row (t : Fin cfg0.N) (r : Fin 1024) : Fin 8192 := ⟨1024 * (t.val % 8) + r.val, by have := tlt t; omega⟩
/-- Column 256 (t / 8) + j of the 11008: the column that column j of point t's blocks is. -/
abbrev col (t : Fin cfg0.N) (j : Fin 256) : Fin 11008 := ⟨256 * (t.val / 8) + j.val, by have := tlt t; omega⟩

/-! ## The printed index maps, decided once over the grid -/

theorem idx_facts : ∀ t : Fin cfg0.N,
    win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = t.val % 8 ∧ win0_5.index t (1 : Fin 2) = t.val / 8 :=
  (by decide +kernel : ∀ t : Fin grid0.N, _)

/-! ## The host's two arrays before the region -/

/-- x as the region finds it: laid out as 8192 x 4096. -/
theorem xarr_eq (c : Dev nD) :
    (V m c main_v1 : Vec Ideal S8192x4096 .bf16)
      = (truncf (F := Ideal) .bf16 (shapeCast S8192x4096 (xA m c) shapeCasts_S4x2048x4096_S8192x4096) bitsLt_bf16_f32 : Vec Ideal S8192x4096 .bf16) := by
  dsimp only [V, V0]
  simp only [hostOps0, List.flatten_cons, List.flatten_nil, List.append_nil, List.cons_append, List.nil_append]
  after_results
  rfl

/-- Row R of it is x[R / 2048, R mod 2048, :]. -/
theorem xarr_apply (c : Dev nD) (R : Fin 8192) (k : Fin 4096) :
    ((V m c main_v1 : Vec Ideal S8192x4096 .bf16) (ix2 R k) : EReal)
      = xA m c (ix3 (⟨R.val / 2048, by omega⟩ : Fin 4) (⟨R.val % 2048, by omega⟩ : Fin 2048) k) := by
  rw [xarr_eq]
  show shapeCast S8192x4096 (xA m c) shapeCasts_S4x2048x4096_S8192x4096 (ix2 R k) = _
  refine shapeCast_apply _ _ _ _ ?_
  rw [Shape.rowMajor_val_three, Shape.rowMajor_val_two]
  show (R.val / 2048 * 2048 + R.val % 2048) * 4096 + k.val = R.val * 4096 + k.val
  have := Nat.div_add_mod R.val 2048
  omega

/-- The bias as the region finds it: laid out as 1 x 11008. -/
theorem barr_eq (c : Dev nD) :
    (V m c main_v2 : Vec Ideal S1x11008 .f32) = (shapeCast S1x11008 (bA m c) shapeCasts_S11008_S1x11008 : Vec Ideal S1x11008 .f32) := by
  dsimp only [V, V0]
  simp only [hostOps0, List.flatten_cons, List.flatten_nil, List.append_nil, List.cons_append, List.nil_append]
  after_results
  rfl

theorem barr_apply (c : Dev nD) (n : Fin 11008) :
    ((V m c main_v2 : Vec Ideal S1x11008 .f32) (ix2 (0 : Fin 1) n) : EReal) = bA m c (ix1 n) := by
  rw [barr_eq]
  refine shapeCast_apply _ _ _ _ ?_
  rw [Shape.rowMajor_val_one, Shape.rowMajor_val_two]
  show n.val = 0 * 11008 + n.val
  omega

/-! ## The input blocks, at their literal types, read against the arrays -/

abbrev xblk (c : Dev nD) (t : Fin cfg0.N) : Vec Ideal S1024x4096 .bf16 := iblk m c 0 t
abbrev qblk (c : Dev nD) (t : Fin cfg0.N) : Vec Ideal S512x256 .i32 := iblk m c 1 t
abbrev gblk (c : Dev nD) (t : Fin cfg0.N) : Vec Ideal S128x256 .i32 := iblk m c 2 t
abbrev sblk (c : Dev nD) (t : Fin cfg0.N) : Vec Ideal S1x256 .f32 := iblk m c 3 t
abbrev bblk (c : Dev nD) (t : Fin cfg0.N) : Vec Ideal S1x256 .f32 := iblk m c 4 t

theorem xblk_apply (c : Dev nD) (t : Fin cfg0.N) (r : Fin 1024) (k : Fin 4096) :
    (xblk m c t (ix2 r k) : EReal)
      = xA m c (ix3 (⟨(row t r).val / 2048, by omega⟩ : Fin 4) (⟨(row t r).val % 2048, by omega⟩ : Fin 2048) k) := by
  obtain ⟨e0, e1, -⟩ := idx_facts t
  refine Eq.trans ?_ (xarr_apply m c (row t r) k)
  unfold xblk iblk
  rw [View.read_apply]
  show V m c main_v1 _ = V m c main_v1 _
  congr 1
  funext a
  apply Fin.ext
  match a with
  | ⟨0, _⟩ => show win0_0.index t (0 : Fin 2) * 1024 + 1 * r.val = 1024 * (t.val % 8) + r.val; rw [e0]; omega
  | ⟨1, _⟩ => show win0_0.index t (1 : Fin 2) * 4096 + 1 * k.val = k.val; rw [e1]; omega

theorem qblk_apply (c : Dev nD) (t : Fin cfg0.N) (a : Fin 512) (j : Fin 256) :
    qblk m c t (ix2 a j) = qA m c (ix2 a (col t j)) := by
  obtain ⟨-, -, e0, e1, -⟩ := idx_facts t
  unfold qblk iblk
  rw [View.read_apply]
  show V m c main_arg1 _ = _
  rw [V_main_arg1]
  show m ((c.tc : Thread nD τ).loc main_arg1) _ = m ((c.tc : Thread nD τ).loc main_arg1) _
  congr 1
  funext d
  apply Fin.ext
  match d with
  | ⟨0, _⟩ => show win0_1.index t (0 : Fin 2) * 512 + 1 * a.val = a.val; rw [e0]; omega
  | ⟨1, _⟩ => show win0_1.index t (1 : Fin 2) * 256 + 1 * j.val = 256 * (t.val / 8) + j.val; rw [e1]; omega

theorem gblk_apply (c : Dev nD) (t : Fin cfg0.N) (a : Fin 128) (j : Fin 256) :
    gblk m c t (ix2 a j) = gA m c (ix2 a (col t j)) := by
  obtain ⟨-, -, -, -, e0, e1, -⟩ := idx_facts t
  unfold gblk iblk
  rw [View.read_apply]
  show V m c main_arg2 _ = _
  rw [V_main_arg2]
  show m ((c.tc : Thread nD τ).loc main_arg2) _ = m ((c.tc : Thread nD τ).loc main_arg2) _
  congr 1
  funext d
  apply Fin.ext
  match d with
  | ⟨0, _⟩ => show win0_2.index t (0 : Fin 2) * 128 + 1 * a.val = a.val; rw [e0]; omega
  | ⟨1, _⟩ => show win0_2.index t (1 : Fin 2) * 256 + 1 * j.val = 256 * (t.val / 8) + j.val; rw [e1]; omega

theorem sblk_apply (c : Dev nD) (t : Fin cfg0.N) (j : Fin 256) :
    (sblk m c t (ix2 (0 : Fin 1) j) : EReal) = sA m c (ix2 (0 : Fin 1) (col t j)) := by
  obtain ⟨-, -, -, -, -, -, e0, e1, -⟩ := idx_facts t
  unfold sblk iblk
  rw [View.read_apply]
  show V m c main_arg3 _ = _
  rw [V_main_arg3]
  show m ((c.tc : Thread nD τ).loc main_arg3) _ = m ((c.tc : Thread nD τ).loc main_arg3) _
  congr 1
  funext d
  apply Fin.ext
  match d with
  | ⟨0, _⟩ => show win0_3.index t (0 : Fin 2) * 1 + 1 * 0 = 0; rw [e0]
  | ⟨1, _⟩ => show win0_3.index t (1 : Fin 2) * 256 + 1 * j.val = 256 * (t.val / 8) + j.val; rw [e1]; omega

theorem bblk_apply (c : Dev nD) (t : Fin cfg0.N) (j : Fin 256) :
    (bblk m c t (ix2 (0 : Fin 1) j) : EReal) = bA m c (ix1 (col t j)) := by
  obtain ⟨-, -, -, -, -, -, -, -, e0, e1, -⟩ := idx_facts t
  refine Eq.trans ?_ (barr_apply m c (col t j))
  unfold bblk iblk
  rw [View.read_apply]
  show V m c main_v2 _ = V m c main_v2 _
  congr 1
  funext d
  apply Fin.ext
  match d with
  | ⟨0, _⟩ => show win0_4.index t (0 : Fin 2) * 1 + 1 * 0 = 0; rw [e0]
  | ⟨1, _⟩ => show win0_4.index t (1 : Fin 2) * 256 + 1 * j.val = 256 * (t.val / 8) + j.val; rw [e1]; omega

end Cert.KernelIdeal.KVal

end
-- ==== Proof.KTerms.lean ====
/-
  Names for the pieces of the dequantized weight block as the kernel body computes it from its three loaded blocks:
  the eight magnitude planes (one per nibble of the 512 x 256 block of packed codes), the thirty-two sign planes (one
  per bit of the 128 x 256 block of packed signs), and the block the body stores into its carried scratch: the
  planes interleaved row by row (row 8a + s from nibble plane s, row 32a + b from sign plane b), multiplied
  together and by the scale row.
-/
import proofs.«404938_j16003048145696_2_alg».proof.Proof.Gen.KernelIdeal.Skeleton

noncomputable section

namespace Cert.KernelIdeal.KPay

open Idealize.ShloMosaic Cert.KernelIdeal Cert.KernelIdeal.Gen

variable {F : FTy → Type} [FloatOps F]

/-! ## The eight magnitude planes -/

abbrev mag0 (x1 : Vec F S512x256 .i32) : FVec F S512x256 .f32 := k0_pay6 (k0_pay4 x1) (k0_pay5 x1) 8#32
abbrev mag1 (x1 : Vec F S512x256 .i32) : FVec F S512x256 .f32 :=
  k0_pay14 (k0_pay7 x1) (k0_pay11 (k0_pay7 x1) (k0_pay8 (F := F)) (k0_pay9 x1) (k0_pay10 (F := F))) (k0_pay12 (k0_pay7 x1)) (k0_pay13 (F := F))
abbrev mag2 (x1 : Vec F S512x256 .i32) : FVec F S512x256 .f32 :=
  k0_pay20 (k0_pay15 x1) (k0_pay18 (k0_pay15 x1) (k0_pay16 x1) (k0_pay17 x1)) (k0_pay19 (k0_pay15 x1))
abbrev mag3 (x1 : Vec F S512x256 .i32) : FVec F S512x256 .f32 := k0_pay23 (k0_pay21 x1) (k0_pay22 x1) 6#32
abbrev mag4 (x1 : Vec F S512x256 .i32) : FVec F S512x256 .f32 :=
  k0_pay28 (k0_pay24 x1 16#32) (k0_pay25 x1 16#32) (k0_pay26 x1 16#32) (k0_pay27 (F := F))
abbrev mag5 (x1 : Vec F S512x256 .i32) : FVec F S512x256 .f32 :=
  k0_pay34 (k0_pay29 x1) (k0_pay32 (k0_pay29 x1) (k0_pay30 x1) (k0_pay31 x1)) (k0_pay33 (k0_pay29 x1))
abbrev mag6 (x1 : Vec F S512x256 .i32) : FVec F S512x256 .f32 :=
  k0_pay38 (k0_pay35 x1) (k0_pay37 (k0_pay35 x1) (k0_pay36 x1) 4#32) 14#32
abbrev mag7 (x1 : Vec F S512x256 .i32) : FVec F S512x256 .f32 :=
  k0_pay43 (k0_pay39 x1) (k0_pay40 x1) (k0_pay41 x1) (k0_pay42 (F := F))

/-- The magnitudes interleaved: row 8a + s of the 4096 x 256 block is row a of nibble plane s. -/
abbrev magAll (x1 : Vec F S512x256 .i32) : FVec F S4096x256 .f32 :=
  k0_pay49 (mag5 x1) (mag6 x1) (mag7 x1) (k0_pay44 (mag0 x1)) (k0_pay45 (mag1 x1)) (k0_pay46 (mag2 x1)) (k0_pay47 (mag3 x1)) (k0_pay48 (mag4 x1))

/-! ## The thirty-two sign planes -/

abbrev sgn0 (x2 : Vec F S128x256 .i32) : FVec F S128x256 .f32 := k0_pay50 x2
abbrev sgn1 (x2 : Vec F S128x256 .i32) : FVec F S128x256 .f32 := k0_pay51 x2
abbrev sgn2 (x2 : Vec F S128x256 .i32) : FVec F S128x256 .f32 := k0_pay52 x2
abbrev sgn3 (x2 : Vec F S128x256 .i32) : FVec F S128x256 .f32 := k0_pay54 (k0_pay53 x2) (Scalar.ofBits .f32 0xBF800000#32)
abbrev sgn4 (x2 : Vec F S128x256 .i32) : FVec F S128x256 .f32 := k0_pay55 x2
abbrev sgn5 (x2 : Vec F S128x256 .i32) : FVec F S128x256 .f32 := k0_pay56 x2
abbrev sgn6 (x2 : Vec F S128x256 .i32) : FVec F S128x256 .f32 := k0_pay57 x2
abbrev sgn7 (x2 : Vec F S128x256 .i32) : FVec F S128x256 .f32 := k0_pay58 x2
abbrev sgn8 (x2 : Vec F S128x256 .i32) : FVec F S128x256 .f32 := k0_pay59 x2
abbrev sgn9 (x2 : Vec F S128x256 .i32) : FVec F S128x256 .f32 := k0_pay60 x2
abbrev sgn10 (x2 : Vec F S128x256 .i32) : FVec F S128x256 .f32 := k0_pay61 x2
abbrev sgn11 (x2 : Vec F S128x256 .i32) : FVec F S128x256 .f32 := k0_pay62 x2
abbrev sgn12 (x2 : Vec F S128x256 .i32) : FVec F S128x256 .f32 := k0_pay64 (F := F) (k0_pay63 x2) 1#32
abbrev sgn13 (x2 : Vec F S128x256 .i32) : FVec F S128x256 .f32 := k0_pay65 x2
abbrev sgn14 (x2 : Vec F S128x256 .i32) : FVec F S128x256 .f32 := k0_pay66 x2
abbrev sgn15 (x2 : Vec F S128x256 .i32) : FVec F S128x256 .f32 := k0_pay67 x2
abbrev sgn16 (x2 : Vec F S128x256 .i32) : FVec F S128x256 .f32 := k0_pay70 (F := F) (k0_pay68 x2) k0_pay69
abbrev sgn17 (x2 : Vec F S128x256 .i32) : FVec F S128x256 .f32 := k0_pay71 x2
abbrev sgn18 (x2 : Vec F S128x256 .i32) : FVec F S128x256 .f32 := k0_pay72 x2
abbrev sgn19 (x2 : Vec F S128x256 .i32) : FVec F S128x256 .f32 := k0_pay73 x2
abbrev sgn20 (x2 : Vec F S128x256 .i32) : FVec F S128x256 .f32 := k0_pay76 (k0_pay74 x2) (Scalar.ofBits .f32 0x3F800000#32) (k0_pay75 (F := F))
abbrev sgn21 (x2 : Vec F S128x256 .i32) : FVec F S128x256 .f32 := k0_pay77 x2
abbrev sgn22 (x2 : Vec F S128x256 .i32) : FVec F S128x256 .f32 := k0_pay78 x2
abbrev sgn23 (x2 : Vec F S128x256 .i32) : FVec F S128x256 .f32 := k0_pay79 x2
abbrev sgn24 (x2 : Vec F S128x256 .i32) : FVec F S128x256 .f32 := k0_pay80 x2
abbrev sgn25 (x2 : Vec F S128x256 .i32) : FVec F S128x256 .f32 := k0_pay82 x2 k0_pay81
abbrev sgn26 (x2 : Vec F S128x256 .i32) : FVec F S128x256 .f32 := k0_pay83 x2
abbrev sgn27 (x2 : Vec F S128x256 .i32) : FVec F S128x256 .f32 := k0_pay84 x2
abbrev sgn28 (x2 : Vec F S128x256 .i32) : FVec F S128x256 .f32 := k0_pay85 x2
abbrev sgn29 (x2 : Vec F S128x256 .i32) : FVec F S128x256 .f32 := k0_pay87 (F := F) (k0_pay86 x2)
abbrev sgn30 (x2 : Vec F S128x256 .i32) : FVec F S128x256 .f32 := k0_pay88 x2
abbrev sgn31 (x2 : Vec F S128x256 .i32) : FVec F S128x256 .f32 := k0_pay89 x2

/-- The signs interleaved, before the reshape: plane b sits at position b of the middle axis. -/
abbrev sgnAll (x2 : Vec F S128x256 .i32) : FVec F S128x32x256 .f32 :=
  k0_pay1 (sgn24 x2) (sgn25 x2) (sgn26 x2) (sgn27 x2) (sgn28 x2) (sgn29 x2) (sgn30 x2) (sgn31 x2)
    (k0_pay90 (sgn0 x2)) (k0_pay91 (sgn1 x2)) (k0_pay92 (sgn2 x2)) (k0_pay93 (sgn3 x2)) (k0_pay94 (sgn4 x2)) (k0_pay95 (sgn5 x2)) (k0_pay96 (sgn6 x2)) (k0_pay97 (sgn7 x2)) (k0_pay98 (sgn8 x2)) (k0_pay99 (sgn9 x2)) (k0_pay100 (sgn10 x2)) (k0_pay101 (sgn11 x2)) (k0_pay102 (sgn12 x2)) (k0_pay103 (sgn13 x2)) (k0_pay104 (sgn14 x2)) (k0_pay105 (sgn15 x2)) (k0_pay106 (sgn16 x2)) (k0_pay107 (sgn17 x2)) (k0_pay108 (sgn18 x2)) (k0_pay109 (sgn19 x2)) (k0_pay110 (sgn20 x2)) (k0_pay111 (sgn21 x2)) (k0_pay112 (sgn22 x2)) (k0_pay113 (sgn23 x2))

/-- The block the body stores into the carried scratch. -/
def wpay (x1 : Vec F S512x256 .i32) (x2 : Vec F S128x256 .i32) (x3 : Vec F S1x256 .f32) : FVec F S4096x256 .bf16 :=
  k0_pay2 (magAll x1) (sgnAll x2) x3

end Cert.KernelIdeal.KPay

end
-- ==== Proof.KPieces.lean ====
/-
  What one run of the kernel body leaves behind, as values of the blocks it loaded. At a point that starts a column
  block (the second grid coordinate is 0) the body stores the dequantized weight block into the scratch it carries, and
  the output block is the loaded x block times that weight block plus the bias row; at every other point the scratch
  is left as it was found and the output block is the x block times the scratch as found, plus the bias row.
-/
import proofs.«404938_j16003048145696_2_alg».proof.Proof.Gen.KernelIdeal.Frame
import proofs.«404938_j16003048145696_2_alg».proof.Proof.KTerms
import Idealize.ShloMosaic.Lib.Pipeline.Value
import Idealize.ShloMosaic.Lib.Tactic

noncomputable section

set_option maxRecDepth 16384

namespace Cert.KernelIdeal.KPay

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At a point that starts a column block, the scratch ends at the dequantized weight block of the three loaded blocks. -/
theorem sout_A (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S128x256 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S4096x256 .bf16) (harg8 : arg8.IsWhole) (hc0 : cond0_0 i)
    (x0 : Vec F S1024x4096 .bf16) (x1 : Vec F S512x256 .i32) (x2 : Vec F S128x256 .i32) (x3 : Vec F S1x256 .f32) (x4 : Vec F S1x256 .f32) :
    sout0_A_0 c i arg2 harg2 arg3 harg3 arg4 harg4 arg5 harg5 arg6 harg6 arg7 harg7 arg8 harg8 hc0 x0 x1 x2 x3 x4 = wpay x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x4096) hz, View.ld_unit_zero (S := S512x256) hz, View.ld_unit_zero (S := S128x256) hz,
    View.ld_unit_zero (S := S1x256) hz, View.ld_unit_zero (S := S4096x256) hz, View.ld_unit_zero (S := S1024x256) hz]
  rfl

/-- At such a point the output block is the x block times that weight block, plus the bias row. -/
theorem out_A (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S128x256 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S4096x256 .bf16) (harg8 : arg8.IsWhole) (hc0 : cond0_0 i)
    (x0 : Vec F S1024x4096 .bf16) (x1 : Vec F S512x256 .i32) (x2 : Vec F S128x256 .i32) (x3 : Vec F S1x256 .f32) (x4 : Vec F S1x256 .f32) :
    out0_A_5 c i arg2 harg2 arg3 harg3 arg4 harg4 arg5 harg5 arg6 harg6 arg7 harg7 arg8 harg8 hc0 x0 x1 x2 x3 x4 = k0_pay3 x0 (wpay x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x4096) hz, View.ld_unit_zero (S := S512x256) hz, View.ld_unit_zero (S := S128x256) hz,
    View.ld_unit_zero (S := S1x256) hz, View.ld_unit_zero (S := S4096x256) hz, View.ld_unit_zero (S := S1024x256) hz,
    View.readCov_unit_zero (S := S4096x256) _ hz]
  rfl

/-- At any other point the output block is the x block times the scratch as found, plus the bias row. -/
theorem out_B (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S128x256 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S4096x256 .bf16) (harg8 : arg8.IsWhole) (hc0 : ¬cond0_0 i)
    (x0 : Vec F S1024x4096 .bf16) (x1 : Vec F S512x256 .i32) (x2 : Vec F S128x256 .i32) (x3 : Vec F S1x256 .f32) (x4 : Vec F S1x256 .f32) (xs0 : Vec F S4096x256 .bf16) :
    out0_B_5 c i arg2 harg2 arg3 harg3 arg4 harg4 arg5 harg5 arg6 harg6 arg7 harg7 arg8 harg8 hc0 x0 x1 x2 x3 x4 xs0 = k0_pay3 x0 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x4096) hz, View.ld_unit_zero (S := S512x256) hz, View.ld_unit_zero (S := S128x256) hz,
    View.ld_unit_zero (S := S1x256) hz, View.ld_unit_zero (S := S4096x256) hz, View.ld_unit_zero (S := S1024x256) hz]

end Cert.KernelIdeal.KPay

end
-- ==== Proof.KMag.lean ====
/-
  Each of the eight magnitude planes, read at an index of the 512 x 256 block: the sixteen-way selection applied to
  the nibble of the packed word at that index. Every operation in a plane is elementwise, so the plane at an index is
  the scalar chain at that index's word.
-/
import proofs.«404938_j16003048145696_2_alg».proof.Proof.KTerms
import proofs.«404938_j16003048145696_2_alg».proof.Proof.Spec

noncomputable section

namespace Cert.KernelIdeal.KPay

open Idealize.ShloMosaic Cert.KernelIdeal Cert.KernelIdeal.Gen Cert.Dequant

variable {F : FTy → Type} [FloatOps F]

/-- The code in nibble `s` as a plane spells it: an arithmetic shift by the word `k` whose value is `4 s`, an amount
    below the width (so the shift is the ordinary sign-filling one), then the mask with 15. This is `nib x s`. -/
private theorem code_eq (x k : BitVec 32) (s : Nat) (hk : k.toNat = 4 * s) (hlt : k.toNat < 32) :
    IntOp.andi (IntOp.shrsi .vector x k) 15#32 = nib x s := by
  unfold IntOp.andi IntOp.shrsi nib
  rw [if_pos hlt]
  unfold BitVec.sshiftRight'
  rw [hk]

/-- Plane 0: the shift is by 0 = 4 * 0. With the code spelled as the plane spells it, the plane at `y` and the
    sixteen nested selections are the same term: each elementwise operation at `y` is the scalar operation on the
    operands at `y`, and a constant plane at `y` is its constant. -/
theorem mag0_apply (x1 : Vec F S512x256 .i32) (y : S512x256.Idx) : mag0 x1 y = magOf (nib (x1 y) 0) := by
  rw [← code_eq (x1 y) 0#32 0 (by decide) (by decide)]
  rfl

/-- Plane 1: the shift is by 4 = 4 * 1. With the code spelled as the plane spells it, the plane at `y` and the
    sixteen nested selections are the same term: each elementwise operation at `y` is the scalar operation on the
    operands at `y`, and a constant plane at `y` is its constant. -/
theorem mag1_apply (x1 : Vec F S512x256 .i32) (y : S512x256.Idx) : mag1 x1 y = magOf (nib (x1 y) 1) := by
  rw [← code_eq (x1 y) 4#32 1 (by decide) (by decide)]
  rfl

/-- Plane 2: the shift is by 8 = 4 * 2. With the code spelled as the plane spells it, the plane at `y` and the
    sixteen nested selections are the same term: each elementwise operation at `y` is the scalar operation on the
    operands at `y`, and a constant plane at `y` is its constant. -/
theorem mag2_apply (x1 : Vec F S512x256 .i32) (y : S512x256.Idx) : mag2 x1 y = magOf (nib (x1 y) 2) := by
  rw [← code_eq (x1 y) 8#32 2 (by decide) (by decide)]
  rfl

/-- Plane 3: the shift is by 12 = 4 * 3. With the code spelled as the plane spells it, the plane at `y` and the
    sixteen nested selections are the same term: each elementwise operation at `y` is the scalar operation on the
    operands at `y`, and a constant plane at `y` is its constant. -/
theorem mag3_apply (x1 : Vec F S512x256 .i32) (y : S512x256.Idx) : mag3 x1 y = magOf (nib (x1 y) 3) := by
  rw [← code_eq (x1 y) 12#32 3 (by decide) (by decide)]
  rfl

/-- Plane 4: the shift is by 16 = 4 * 4. With the code spelled as the plane spells it, the plane at `y` and the
    sixteen nested selections are the same term: each elementwise operation at `y` is the scalar operation on the
    operands at `y`, and a constant plane at `y` is its constant. -/
theorem mag4_apply (x1 : Vec F S512x256 .i32) (y : S512x256.Idx) : mag4 x1 y = magOf (nib (x1 y) 4) := by
  rw [← code_eq (x1 y) 16#32 4 (by decide) (by decide)]
  rfl

/-- Plane 5: the shift is by 20 = 4 * 5. With the code spelled as the plane spells it, the plane at `y` and the
    sixteen nested selections are the same term: each elementwise operation at `y` is the scalar operation on the
    operands at `y`, and a constant plane at `y` is its constant. -/
theorem mag5_apply (x1 : Vec F S512x256 .i32) (y : S512x256.Idx) : mag5 x1 y = magOf (nib (x1 y) 5) := by
  rw [← code_eq (x1 y) 20#32 5 (by decide) (by decide)]
  rfl

/-- Plane 6: the shift is by 24 = 4 * 6. With the code spelled as the plane spells it, the plane at `y` and the
    sixteen nested selections are the same term: each elementwise operation at `y` is the scalar operation on the
    operands at `y`, and a constant plane at `y` is its constant. -/
theorem mag6_apply (x1 : Vec F S512x256 .i32) (y : S512x256.Idx) : mag6 x1 y = magOf (nib (x1 y) 6) := by
  rw [← code_eq (x1 y) 24#32 6 (by decide) (by decide)]
  rfl

/-- Plane 7: the shift is by 28 = 4 * 7. With the code spelled as the plane spells it, the plane at `y` and the
    sixteen nested selections are the same term: each elementwise operation at `y` is the scalar operation on the
    operands at `y`, and a constant plane at `y` is its constant. -/
theorem mag7_apply (x1 : Vec F S512x256 .i32) (y : S512x256.Idx) : mag7 x1 y = magOf (nib (x1 y) 7) := by
  rw [← code_eq (x1 y) 28#32 7 (by decide) (by decide)]
  rfl

end Cert.KernelIdeal.KPay

end
-- ==== Proof.KSgn.lean ====
/-
  Each of the thirty-two sign planes, read at an index of the 128 x 256 block: -1 where bit b of the packed sign word
  at that index is set, 1 elsewhere.
-/
import proofs.«404938_j16003048145696_2_alg».proof.Proof.KTerms
import proofs.«404938_j16003048145696_2_alg».proof.Proof.Spec

noncomputable section

namespace Cert.KernelIdeal.KPay

open Idealize.ShloMosaic Cert.KernelIdeal Cert.KernelIdeal.Gen Cert.Dequant

variable {F : FTy → Type} [FloatOps F]

/-- The body's spelling of bit b of a word (arithmetic shift right by the literal b, then the mask 1) is the
    specification's, for every shift below the word width: the shift amount b, as a 32-bit word, reads back as b,
    so the in-range branch of the shift is taken and it is the arithmetic shift by b. -/
private theorem bit_spell (x : BitVec 32) (b : Nat) (hb : b < 32) :
    IntOp.andi (IntOp.shrsi .vector x (BitVec.ofNat 32 b)) 1#32 = sbit x b := by
  have hb' : (BitVec.ofNat 32 b).toNat = b := by
    rw [BitVec.toNat_ofNat]; exact Nat.mod_eq_of_lt (by omega)
  unfold IntOp.andi IntOp.shrsi sbit
  rw [if_pos (by rw [hb']; exact hb), BitVec.sshiftRight', hb']

/-! Each plane is, pointwise, the selection of -1 where (word >>ₛ b) &&& 1 equals 1 and of 1 elsewhere; once the
    bit is respelt as the specification's, the two sides are the same term, whichever way the plane's
    computation is cut into pieces. -/

theorem sgn0_apply (x2 : Vec F S128x256 .i32) (y : S128x256.Idx) : sgn0 x2 y = sgnOf (sbit (x2 y) 0) := by
  rw [← bit_spell (x2 y) 0 (by decide)]; rfl

theorem sgn1_apply (x2 : Vec F S128x256 .i32) (y : S128x256.Idx) : sgn1 x2 y = sgnOf (sbit (x2 y) 1) := by
  rw [← bit_spell (x2 y) 1 (by decide)]; rfl

theorem sgn2_apply (x2 : Vec F S128x256 .i32) (y : S128x256.Idx) : sgn2 x2 y = sgnOf (sbit (x2 y) 2) := by
  rw [← bit_spell (x2 y) 2 (by decide)]; rfl

theorem sgn3_apply (x2 : Vec F S128x256 .i32) (y : S128x256.Idx) : sgn3 x2 y = sgnOf (sbit (x2 y) 3) := by
  rw [← bit_spell (x2 y) 3 (by decide)]; rfl

theorem sgn4_apply (x2 : Vec F S128x256 .i32) (y : S128x256.Idx) : sgn4 x2 y = sgnOf (sbit (x2 y) 4) := by
  rw [← bit_spell (x2 y) 4 (by decide)]; rfl

theorem sgn5_apply (x2 : Vec F S128x256 .i32) (y : S128x256.Idx) : sgn5 x2 y = sgnOf (sbit (x2 y) 5) := by
  rw [← bit_spell (x2 y) 5 (by decide)]; rfl

theorem sgn6_apply (x2 : Vec F S128x256 .i32) (y : S128x256.Idx) : sgn6 x2 y = sgnOf (sbit (x2 y) 6) := by
  rw [← bit_spell (x2 y) 6 (by decide)]; rfl

theorem sgn7_apply (x2 : Vec F S128x256 .i32) (y : S128x256.Idx) : sgn7 x2 y = sgnOf (sbit (x2 y) 7) := by
  rw [← bit_spell (x2 y) 7 (by decide)]; rfl

theorem sgn8_apply (x2 : Vec F S128x256 .i32) (y : S128x256.Idx) : sgn8 x2 y = sgnOf (sbit (x2 y) 8) := by
  rw [← bit_spell (x2 y) 8 (by decide)]; rfl

theorem sgn9_apply (x2 : Vec F S128x256 .i32) (y : S128x256.Idx) : sgn9 x2 y = sgnOf (sbit (x2 y) 9) := by
  rw [← bit_spell (x2 y) 9 (by decide)]; rfl

theorem sgn10_apply (x2 : Vec F S128x256 .i32) (y : S128x256.Idx) : sgn10 x2 y = sgnOf (sbit (x2 y) 10) := by
  rw [← bit_spell (x2 y) 10 (by decide)]; rfl

theorem sgn11_apply (x2 : Vec F S128x256 .i32) (y : S128x256.Idx) : sgn11 x2 y = sgnOf (sbit (x2 y) 11) := by
  rw [← bit_spell (x2 y) 11 (by decide)]; rfl

theorem sgn12_apply (x2 : Vec F S128x256 .i32) (y : S128x256.Idx) : sgn12 x2 y = sgnOf (sbit (x2 y) 12) := by
  rw [← bit_spell (x2 y) 12 (by decide)]; rfl

theorem sgn13_apply (x2 : Vec F S128x256 .i32) (y : S128x256.Idx) : sgn13 x2 y = sgnOf (sbit (x2 y) 13) := by
  rw [← bit_spell (x2 y) 13 (by decide)]; rfl

theorem sgn14_apply (x2 : Vec F S128x256 .i32) (y : S128x256.Idx) : sgn14 x2 y = sgnOf (sbit (x2 y) 14) := by
  rw [← bit_spell (x2 y) 14 (by decide)]; rfl

theorem sgn15_apply (x2 : Vec F S128x256 .i32) (y : S128x256.Idx) : sgn15 x2 y = sgnOf (sbit (x2 y) 15) := by
  rw [← bit_spell (x2 y) 15 (by decide)]; rfl

theorem sgn16_apply (x2 : Vec F S128x256 .i32) (y : S128x256.Idx) : sgn16 x2 y = sgnOf (sbit (x2 y) 16) := by
  rw [← bit_spell (x2 y) 16 (by decide)]; rfl

theorem sgn17_apply (x2 : Vec F S128x256 .i32) (y : S128x256.Idx) : sgn17 x2 y = sgnOf (sbit (x2 y) 17) := by
  rw [← bit_spell (x2 y) 17 (by decide)]; rfl

theorem sgn18_apply (x2 : Vec F S128x256 .i32) (y : S128x256.Idx) : sgn18 x2 y = sgnOf (sbit (x2 y) 18) := by
  rw [← bit_spell (x2 y) 18 (by decide)]; rfl

theorem sgn19_apply (x2 : Vec F S128x256 .i32) (y : S128x256.Idx) : sgn19 x2 y = sgnOf (sbit (x2 y) 19) := by
  rw [← bit_spell (x2 y) 19 (by decide)]; rfl

theorem sgn20_apply (x2 : Vec F S128x256 .i32) (y : S128x256.Idx) : sgn20 x2 y = sgnOf (sbit (x2 y) 20) := by
  rw [← bit_spell (x2 y) 20 (by decide)]; rfl

theorem sgn21_apply (x2 : Vec F S128x256 .i32) (y : S128x256.Idx) : sgn21 x2 y = sgnOf (sbit (x2 y) 21) := by
  rw [← bit_spell (x2 y) 21 (by decide)]; rfl

theorem sgn22_apply (x2 : Vec F S128x256 .i32) (y : S128x256.Idx) : sgn22 x2 y = sgnOf (sbit (x2 y) 22) := by
  rw [← bit_spell (x2 y) 22 (by decide)]; rfl

theorem sgn23_apply (x2 : Vec F S128x256 .i32) (y : S128x256.Idx) : sgn23 x2 y = sgnOf (sbit (x2 y) 23) := by
  rw [← bit_spell (x2 y) 23 (by decide)]; rfl

theorem sgn24_apply (x2 : Vec F S128x256 .i32) (y : S128x256.Idx) : sgn24 x2 y = sgnOf (sbit (x2 y) 24) := by
  rw [← bit_spell (x2 y) 24 (by decide)]; rfl

theorem sgn25_apply (x2 : Vec F S128x256 .i32) (y : S128x256.Idx) : sgn25 x2 y = sgnOf (sbit (x2 y) 25) := by
  rw [← bit_spell (x2 y) 25 (by decide)]; rfl

theorem sgn26_apply (x2 : Vec F S128x256 .i32) (y : S128x256.Idx) : sgn26 x2 y = sgnOf (sbit (x2 y) 26) := by
  rw [← bit_spell (x2 y) 26 (by decide)]; rfl

theorem sgn27_apply (x2 : Vec F S128x256 .i32) (y : S128x256.Idx) : sgn27 x2 y = sgnOf (sbit (x2 y) 27) := by
  rw [← bit_spell (x2 y) 27 (by decide)]; rfl

theorem sgn28_apply (x2 : Vec F S128x256 .i32) (y : S128x256.Idx) : sgn28 x2 y = sgnOf (sbit (x2 y) 28) := by
  rw [← bit_spell (x2 y) 28 (by decide)]; rfl

theorem sgn29_apply (x2 : Vec F S128x256 .i32) (y : S128x256.Idx) : sgn29 x2 y = sgnOf (sbit (x2 y) 29) := by
  rw [← bit_spell (x2 y) 29 (by decide)]; rfl

theorem sgn30_apply (x2 : Vec F S128x256 .i32) (y : S128x256.Idx) : sgn30 x2 y = sgnOf (sbit (x2 y) 30) := by
  rw [← bit_spell (x2 y) 30 (by decide)]; rfl

theorem sgn31_apply (x2 : Vec F S128x256 .i32) (y : S128x256.Idx) : sgn31 x2 y = sgnOf (sbit (x2 y) 31) := by
  rw [← bit_spell (x2 y) 31 (by decide)]; rfl

end Cert.KernelIdeal.KPay

end
-- ==== Proof.KWeight.lean ====
/-
  The block the body stores into its scratch, read at row k, column j, over the extended reals: the weight of the
  specification, from the code word at (k / 8, j), the sign word at (k / 32, j) and the scale at (0, j). The
  interleaving puts nibble plane k mod 8 and sign plane k mod 32 at row k; the product magnitude x sign x scale is the
  magnitude times the scale, negated when the sign bit is set, because the sign factor is -1 or 1.
-/
import proofs.«404938_j16003048145696_2_alg».proof.Proof.KMag
import proofs.«404938_j16003048145696_2_alg».proof.Proof.KSgn
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen Cert.Dequant

namespace KWeight

section Layout

variable {α : Type}

/-- A rank-2 array viewed with a unit axis in the middle reads, at (a, u, b), the array at (a, b). -/
theorem cast_mid_unit_apply {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) := by
  refine shapeCast_apply x h _ _ ?_
  rw [Shape.rowMajor_val_two, Shape.rowMajor_val_three]
  show a.val * B + b.val = (a.val * 1 + u.val) * B + b.val
  rw [Fin.val_eq_zero u, Nat.mul_one, Nat.add_zero]

/-- N pieces of shape [A, 1, B] laid side by side along the middle axis: at (a, n, b) the result reads
    piece n at (a, 0, b). -/
theorem cat_mid_apply {A N B : ℕ} (f : Fin N → ((⟨3, ![A, 1, B]⟩ : Shape).Idx → α))
    (h : Shape.Concatenates ((List.ofFn fun n : Fin N =>
        (⟨⟨3, ![A, 1, B]⟩, f n⟩ : (s : Shape) × (s.Idx → α))).map (·.1)) ⟨3, ![A, N, B]⟩ 1)
    (a : Fin A) (n : Fin N) (b : Fin B) :
    concatenate ⟨3, ![A, N, B]⟩ 1 (List.ofFn fun n : Fin N =>
        (⟨⟨3, ![A, 1, B]⟩, f n⟩ : (s : Shape) × (s.Idx → α))) h (ix3 a n b) = f n (ix3 a (0 : Fin 1) b) := by
  refine concatenate_ofFn_unit_apply (t := ⟨3, ![A, N, B]⟩) (s₁ := ⟨3, ![A, 1, B]⟩) (1 : Fin 3) f h rfl rfl
    (ix3 a n b) n rfl (ix3 a (0 : Fin 1) b) ?_
  intro c hc
  match c, hc with
  | ⟨0, _⟩, _ => rfl
  | ⟨1, _⟩, hc => exact absurd rfl hc
  | ⟨2, _⟩, _ => rfl

/-- A [A, N, B] array flattened row-major to [A * N, B]: row k reads (k / N, k mod N). -/
theorem cast_flatten_apply {A N B M : ℕ} (x : (⟨3, ![A, N, B]⟩ : Shape).Idx → α)
    (h : (⟨3, ![A, N, B]⟩ : Shape).ShapeCasts ⟨2, ![M, B]⟩) (k : Fin M) (b : Fin B)
    (a : Fin A) (n : Fin N) (hk : a.val * N + n.val = k.val) :
    shapeCast ⟨2, ![M, B]⟩ x h (ix2 k b) = x (ix3 a n b) := by
  refine shapeCast_apply x h _ _ ?_
  rw [Shape.rowMajor_val_two, Shape.rowMajor_val_three]
  show (a.val * N + n.val) * B + b.val = k.val * B + b.val
  rw [hk]

end Layout

section Payloads

variable {F : FTy → Type} [FloatOps F]

/-- The eight pieces the magnitude interleaving lays side by side, piece s being nibble plane s. -/
def magPieces (v426 v495 v564 : FVec F S512x256 .f32) (v565 v566 v567 v568 v569 : FVec F S512x1x256 .f32) :
    Fin 8 → FVec F S512x1x256 .f32 :=
  ![v565, v566, v567, v568, v569,
    shapeCast S512x1x256 v426 shapeCasts_S512x256_S512x1x256,
    shapeCast S512x1x256 v495 shapeCasts_S512x256_S512x1x256,
    shapeCast S512x1x256 v564 shapeCasts_S512x256_S512x1x256]

/-- Row k of the interleaved magnitudes is piece k mod 8 at row k / 8. -/
theorem pay49_apply (v426 v495 v564 : FVec F S512x256 .f32) (v565 v566 v567 v568 v569 : FVec F S512x1x256 .f32)
    (k : Fin 4096) (j : Fin 256) :
    k0_pay49 v426 v495 v564 v565 v566 v567 v568 v569 (ix2 k j)
      = magPieces v426 v495 v564 v565 v566 v567 v568 v569 (⟨k.val % 8, Nat.mod_lt _ (by omega)⟩ : Fin 8)
          (ix3 (⟨k.val / 8, by omega⟩ : Fin 512) (0 : Fin 1) j) := by
  unfold k0_pay49
  refine (cast_flatten_apply _ _ k j (⟨k.val / 8, by omega⟩ : Fin 512) (⟨k.val % 8, Nat.mod_lt _ (by omega)⟩ : Fin 8)
    (by show k.val / 8 * 8 + k.val % 8 = k.val; omega)).trans ?_
  exact cat_mid_apply (magPieces v426 v495 v564 v565 v566 v567 v568 v569) _ _ _ _

/-- The thirty-two pieces the sign interleaving lays side by side, piece b being sign plane b. -/
def sgnPieces (v800 v809 v818 v827 v836 v845 v854 v863 : FVec F S128x256 .f32)
    (v864 v865 v866 v867 v868 v869 v870 v871 v872 v873 v874 v875 v876 v877 v878 v879 v880 v881 v882 v883 v884 v885 v886 v887 : FVec F S128x1x256 .f32) :
    Fin 32 → FVec F S128x1x256 .f32 :=
  ![v864, v865, v866, v867, v868, v869, v870, v871, v872, v873, v874, v875, v876, v877, v878, v879, v880, v881, v882, v883, v884, v885, v886, v887,
    shapeCast S128x1x256 v800 shapeCasts_S128x256_S128x1x256,
    shapeCast S128x1x256 v809 shapeCasts_S128x256_S128x1x256,
    shapeCast S128x1x256 v818 shapeCasts_S128x256_S128x1x256,
    shapeCast S128x1x256 v827 shapeCasts_S128x256_S128x1x256,
    shapeCast S128x1x256 v836 shapeCasts_S128x256_S128x1x256,
    shapeCast S128x1x256 v845 shapeCasts_S128x256_S128x1x256,
    shapeCast S128x1x256 v854 shapeCasts_S128x256_S128x1x256,
    shapeCast S128x1x256 v863 shapeCasts_S128x256_S128x1x256]

/-- The interleaved signs at (a, b, j) are piece b at (a, 0, j). -/
theorem pay1_apply (v800 v809 v818 v827 v836 v845 v854 v863 : FVec F S128x256 .f32)
    (v864 v865 v866 v867 v868 v869 v870 v871 v872 v873 v874 v875 v876 v877 v878 v879 v880 v881 v882 v883 v884 v885 v886 v887 : FVec F S128x1x256 .f32)
    (a : Fin 128) (b : Fin 32) (j : Fin 256) :
    k0_pay1 v800 v809 v818 v827 v836 v845 v854 v863 v864 v865 v866 v867 v868 v869 v870 v871 v872 v873 v874 v875 v876 v877 v878 v879 v880 v881 v882 v883 v884 v885 v886 v887 (ix3 a b j)
      = sgnPieces v800 v809 v818 v827 v836 v845 v854 v863 v864 v865 v866 v867 v868 v869 v870 v871 v872 v873 v874 v875 v876 v877 v878 v879 v880 v881 v882 v883 v884 v885 v886 v887 b (ix3 a (0 : Fin 1) j) := by
  unfold k0_pay1
  exact cat_mid_apply (sgnPieces v800 v809 v818 v827 v836 v845 v854 v863 v864 v865 v866 v867 v868 v869 v870 v871 v872 v873 v874 v875 v876 v877 v878 v879 v880 v881 v882 v883 v884 v885 v886 v887) _ _ _ _

end Payloads

section Planes

variable {F : FTy → Type} [FloatOps F]

/-- Piece s of the magnitude interleaving, at (a, 0, j), is the sixteen-way selection on nibble s of the code word
    at (a, j). -/
theorem magPieces_apply (x1 : Vec F S512x256 .i32) (a : Fin 512) (j : Fin 256) : ∀ n : Fin 8,
    magPieces (mag5 x1) (mag6 x1) (mag7 x1) (k0_pay44 (mag0 x1)) (k0_pay45 (mag1 x1)) (k0_pay46 (mag2 x1))
        (k0_pay47 (mag3 x1)) (k0_pay48 (mag4 x1)) n (ix3 a (0 : Fin 1) j)
      = magOf (nib (x1 (ix2 a j)) n.val)
  | ⟨0, _⟩ => (cast_mid_unit_apply (mag0 x1) shapeCasts_S512x256_S512x1x256 a (0 : Fin 1) j).trans (mag0_apply x1 _)
  | ⟨1, _⟩ => (cast_mid_unit_apply (mag1 x1) shapeCasts_S512x256_S512x1x256 a (0 : Fin 1) j).trans (mag1_apply x1 _)
  | ⟨2, _⟩ => (cast_mid_unit_apply (mag2 x1) shapeCasts_S512x256_S512x1x256 a (0 : Fin 1) j).trans (mag2_apply x1 _)
  | ⟨3, _⟩ => (cast_mid_unit_apply (mag3 x1) shapeCasts_S512x256_S512x1x256 a (0 : Fin 1) j).trans (mag3_apply x1 _)
  | ⟨4, _⟩ => (cast_mid_unit_apply (mag4 x1) shapeCasts_S512x256_S512x1x256 a (0 : Fin 1) j).trans (mag4_apply x1 _)
  | ⟨5, _⟩ => (cast_mid_unit_apply (mag5 x1) shapeCasts_S512x256_S512x1x256 a (0 : Fin 1) j).trans (mag5_apply x1 _)
  | ⟨6, _⟩ => (cast_mid_unit_apply (mag6 x1) shapeCasts_S512x256_S512x1x256 a (0 : Fin 1) j).trans (mag6_apply x1 _)
  | ⟨7, _⟩ => (cast_mid_unit_apply (mag7 x1) shapeCasts_S512x256_S512x1x256 a (0 : Fin 1) j).trans (mag7_apply x1 _)
  | ⟨n + 8, h⟩ => absurd h (by omega)

/-- Piece b of the sign interleaving, at (a, 0, j), is the sign factor of bit b of the sign word at (a, j). -/
theorem sgnPieces_apply (x2 : Vec F S128x256 .i32) (a : Fin 128) (j : Fin 256) : ∀ n : Fin 32,
    sgnPieces (sgn24 x2) (sgn25 x2) (sgn26 x2) (sgn27 x2) (sgn28 x2) (sgn29 x2) (sgn30 x2) (sgn31 x2)
        (k0_pay90 (sgn0 x2)) (k0_pay91 (sgn1 x2)) (k0_pay92 (sgn2 x2)) (k0_pay93 (sgn3 x2)) (k0_pay94 (sgn4 x2)) (k0_pay95 (sgn5 x2)) (k0_pay96 (sgn6 x2)) (k0_pay97 (sgn7 x2)) (k0_pay98 (sgn8 x2)) (k0_pay99 (sgn9 x2)) (k0_pay100 (sgn10 x2)) (k0_pay101 (sgn11 x2)) (k0_pay102 (sgn12 x2)) (k0_pay103 (sgn13 x2)) (k0_pay104 (sgn14 x2)) (k0_pay105 (sgn15 x2)) (k0_pay106 (sgn16 x2)) (k0_pay107 (sgn17 x2)) (k0_pay108 (sgn18 x2)) (k0_pay109 (sgn19 x2)) (k0_pay110 (sgn20 x2)) (k0_pay111 (sgn21 x2)) (k0_pay112 (sgn22 x2)) (k0_pay113 (sgn23 x2)) n (ix3 a (0 : Fin 1) j)
      = sgnOf (sbit (x2 (ix2 a j)) n.val)
  | ⟨0, _⟩ => (cast_mid_unit_apply (sgn0 x2) shapeCasts_S128x256_S128x1x256 a (0 : Fin 1) j).trans (sgn0_apply x2 _)
  | ⟨1, _⟩ => (cast_mid_unit_apply (sgn1 x2) shapeCasts_S128x256_S128x1x256 a (0 : Fin 1) j).trans (sgn1_apply x2 _)
  | ⟨2, _⟩ => (cast_mid_unit_apply (sgn2 x2) shapeCasts_S128x256_S128x1x256 a (0 : Fin 1) j).trans (sgn2_apply x2 _)
  | ⟨3, _⟩ => (cast_mid_unit_apply (sgn3 x2) shapeCasts_S128x256_S128x1x256 a (0 : Fin 1) j).trans (sgn3_apply x2 _)
  | ⟨4, _⟩ => (cast_mid_unit_apply (sgn4 x2) shapeCasts_S128x256_S128x1x256 a (0 : Fin 1) j).trans (sgn4_apply x2 _)
  | ⟨5, _⟩ => (cast_mid_unit_apply (sgn5 x2) shapeCasts_S128x256_S128x1x256 a (0 : Fin 1) j).trans (sgn5_apply x2 _)
  | ⟨6, _⟩ => (cast_mid_unit_apply (sgn6 x2) shapeCasts_S128x256_S128x1x256 a (0 : Fin 1) j).trans (sgn6_apply x2 _)
  | ⟨7, _⟩ => (cast_mid_unit_apply (sgn7 x2) shapeCasts_S128x256_S128x1x256 a (0 : Fin 1) j).trans (sgn7_apply x2 _)
  | ⟨8, _⟩ => (cast_mid_unit_apply (sgn8 x2) shapeCasts_S128x256_S128x1x256 a (0 : Fin 1) j).trans (sgn8_apply x2 _)
  | ⟨9, _⟩ => (cast_mid_unit_apply (sgn9 x2) shapeCasts_S128x256_S128x1x256 a (0 : Fin 1) j).trans (sgn9_apply x2 _)
  | ⟨10, _⟩ => (cast_mid_unit_apply (sgn10 x2) shapeCasts_S128x256_S128x1x256 a (0 : Fin 1) j).trans (sgn10_apply x2 _)
  | ⟨11, _⟩ => (cast_mid_unit_apply (sgn11 x2) shapeCasts_S128x256_S128x1x256 a (0 : Fin 1) j).trans (sgn11_apply x2 _)
  | ⟨12, _⟩ => (cast_mid_unit_apply (sgn12 x2) shapeCasts_S128x256_S128x1x256 a (0 : Fin 1) j).trans (sgn12_apply x2 _)
  | ⟨13, _⟩ => (cast_mid_unit_apply (sgn13 x2) shapeCasts_S128x256_S128x1x256 a (0 : Fin 1) j).trans (sgn13_apply x2 _)
  | ⟨14, _⟩ => (cast_mid_unit_apply (sgn14 x2) shapeCasts_S128x256_S128x1x256 a (0 : Fin 1) j).trans (sgn14_apply x2 _)
  | ⟨15, _⟩ => (cast_mid_unit_apply (sgn15 x2) shapeCasts_S128x256_S128x1x256 a (0 : Fin 1) j).trans (sgn15_apply x2 _)
  | ⟨16, _⟩ => (cast_mid_unit_apply (sgn16 x2) shapeCasts_S128x256_S128x1x256 a (0 : Fin 1) j).trans (sgn16_apply x2 _)
  | ⟨17, _⟩ => (cast_mid_unit_apply (sgn17 x2) shapeCasts_S128x256_S128x1x256 a (0 : Fin 1) j).trans (sgn17_apply x2 _)
  | ⟨18, _⟩ => (cast_mid_unit_apply (sgn18 x2) shapeCasts_S128x256_S128x1x256 a (0 : Fin 1) j).trans (sgn18_apply x2 _)
  | ⟨19, _⟩ => (cast_mid_unit_apply (sgn19 x2) shapeCasts_S128x256_S128x1x256 a (0 : Fin 1) j).trans (sgn19_apply x2 _)
  | ⟨20, _⟩ => (cast_mid_unit_apply (sgn20 x2) shapeCasts_S128x256_S128x1x256 a (0 : Fin 1) j).trans (sgn20_apply x2 _)
  | ⟨21, _⟩ => (cast_mid_unit_apply (sgn21 x2) shapeCasts_S128x256_S128x1x256 a (0 : Fin 1) j).trans (sgn21_apply x2 _)
  | ⟨22, _⟩ => (cast_mid_unit_apply (sgn22 x2) shapeCasts_S128x256_S128x1x256 a (0 : Fin 1) j).trans (sgn22_apply x2 _)
  | ⟨23, _⟩ => (cast_mid_unit_apply (sgn23 x2) shapeCasts_S128x256_S128x1x256 a (0 : Fin 1) j).trans (sgn23_apply x2 _)
  | ⟨24, _⟩ => (cast_mid_unit_apply (sgn24 x2) shapeCasts_S128x256_S128x1x256 a (0 : Fin 1) j).trans (sgn24_apply x2 _)
  | ⟨25, _⟩ => (cast_mid_unit_apply (sgn25 x2) shapeCasts_S128x256_S128x1x256 a (0 : Fin 1) j).trans (sgn25_apply x2 _)
  | ⟨26, _⟩ => (cast_mid_unit_apply (sgn26 x2) shapeCasts_S128x256_S128x1x256 a (0 : Fin 1) j).trans (sgn26_apply x2 _)
  | ⟨27, _⟩ => (cast_mid_unit_apply (sgn27 x2) shapeCasts_S128x256_S128x1x256 a (0 : Fin 1) j).trans (sgn27_apply x2 _)
  | ⟨28, _⟩ => (cast_mid_unit_apply (sgn28 x2) shapeCasts_S128x256_S128x1x256 a (0 : Fin 1) j).trans (sgn28_apply x2 _)
  | ⟨29, _⟩ => (cast_mid_unit_apply (sgn29 x2) shapeCasts_S128x256_S128x1x256 a (0 : Fin 1) j).trans (sgn29_apply x2 _)
  | ⟨30, _⟩ => (cast_mid_unit_apply (sgn30 x2) shapeCasts_S128x256_S128x1x256 a (0 : Fin 1) j).trans (sgn30_apply x2 _)
  | ⟨31, _⟩ => (cast_mid_unit_apply (sgn31 x2) shapeCasts_S128x256_S128x1x256 a (0 : Fin 1) j).trans (sgn31_apply x2 _)
  | ⟨n + 32, h⟩ => absurd h (by omega)

/-- Row k of the interleaved magnitudes: nibble k mod 8 of the code word at (k / 8, j). -/
theorem magAll_apply (x1 : Vec F S512x256 .i32) (k : Fin 4096) (j : Fin 256) :
    magAll x1 (ix2 k j) = magOf (nib (x1 (ix2 (⟨k.val / 8, by omega⟩ : Fin 512) j)) (k.val % 8)) :=
  (pay49_apply _ _ _ _ _ _ _ _ k j).trans (magPieces_apply x1 _ j _)

/-- Row k of the interleaved signs after the flattening: bit k mod 32 of the sign word at (k / 32, j). -/
theorem sgnAll_apply (x2 : Vec F S128x256 .i32) (k : Fin 4096) (j : Fin 256) :
    shapeCast S4096x256 (sgnAll x2) shapeCasts_S128x32x256_S4096x256 (ix2 k j)
      = sgnOf (sbit (x2 (ix2 (⟨k.val / 32, by omega⟩ : Fin 128) j)) (k.val % 32)) :=
  (cast_flatten_apply _ _ k j (⟨k.val / 32, by omega⟩ : Fin 128) (⟨k.val % 32, Nat.mod_lt _ (by omega)⟩ : Fin 32)
    (by show k.val / 32 * 32 + k.val % 32 = k.val; omega)).trans
  ((pay1_apply _ _ _ _ _ _ _ _ _ _ _ _ _ _ _ _ _ _ _ _ _ _ _ _ _ _ _ _ _ _ _ _ _ _ _).trans
    (sgnPieces_apply x2 _ j _))

end Planes

section Arithmetic

/-- The word of -1.0 denotes -1. -/
theorem ofBits_neg_one : Ideal.ofBits .f32 0xBF800000#32 = -1 := by
  simp [Ideal.ofBits, Ideal.ieee, -EReal.coe_mul]; norm_num

/-- The word of 1.0 denotes 1. -/
theorem ofBits_pos_one : Ideal.ofBits .f32 0x3F800000#32 = 1 := by
  simp [Ideal.ofBits, Ideal.ieee, -EReal.coe_mul]; norm_num

/-- A selection on an equality test of two words is the conditional on their equality. -/
theorem select_cmpi_eq {α : Type} (x y : BitVec 32) (A B : α) :
    Scalar.select (IntOp.cmpi .eq x y) A B = if x = y then A else B := by
  unfold Scalar.select IntOp.cmpi
  by_cases h : x = y
  · simp [h]
  · have hb : (x == y) = false := beq_eq_false_iff_ne.mpr h
    simp [h, hb]

/-- The sign factor over the extended reals: -1 when the bit is set, 1 otherwise. -/
theorem sgnOf_ideal (c : BitVec 32) : (sgnOf (F := Ideal) c : EReal) = if c = 1#32 then -1 else 1 := by
  unfold sgnOf
  rw [select_cmpi_eq]
  split
  · exact ofBits_neg_one
  · exact ofBits_pos_one

/-- Magnitude times sign factor times scale is the weight of the specification. -/
theorem mag_sgn_scale (q g : BitVec 32) (sc : EReal) (s b : Nat) :
    (magOf (F := Ideal) (nib q s) : EReal) * (sgnOf (F := Ideal) (sbit g b) : EReal) * sc = wt q g sc s b := by
  unfold wt
  rw [sgnOf_ideal]
  split
  · rw [mul_neg, mul_one, neg_mul]
  · rw [mul_one]

end Arithmetic

end KWeight

open KWeight in
/-- The stored block at row k, column j, over the extended reals, is the weight of the specification. -/
theorem wpay_apply (x1 : Vec Ideal S512x256 .i32) (x2 : Vec Ideal S128x256 .i32) (x3 : Vec Ideal S1x256 .f32)
    (k : Fin 4096) (j : Fin 256) :
    (wpay x1 x2 x3 (ix2 k j) : EReal)
      = wt (x1 (ix2 (⟨k.val / 8, by omega⟩ : Fin 512) j)) (x2 (ix2 (⟨k.val / 32, by omega⟩ : Fin 128) j))
          (x3 (ix2 (0 : Fin 1) j)) (k.val % 8) (k.val % 32) := by
  have e : wpay x1 x2 x3
      = truncf .bf16 (mulf (mulf (magAll x1) (shapeCast S4096x256 (sgnAll x2) shapeCasts_S128x32x256_S4096x256))
          (broadcastTo S4096x256 x3 broadcasts_S1x256_S4096x256)) bitsLt_bf16_f32 :=
    by unfold wpay k0_pay2; exact shapeCast_self _ _
  rw [e]
  show magAll x1 (ix2 k j) * shapeCast S4096x256 (sgnAll x2) shapeCasts_S128x32x256_S4096x256 (ix2 k j)
      * broadcastTo S4096x256 x3 broadcasts_S1x256_S4096x256 (ix2 k j) = _
  rw [magAll_apply, sgnAll_apply, broadcastTo_1b_ab_apply]
  exact mag_sgn_scale _ _ _ _ _

end Cert.KernelIdeal.KPay

end
-- ==== Proof.KMatmul.lean ====
/-
  The block the body stores into the output, read at row r, column j, over the extended reals: the sum over k of
  x[r, k] times the scratch at (k, j), plus the bias at (0, j). The matrix product starts from a zero accumulator and
  contracts the one shared axis of 4096.
-/
import proofs.«404938_j16003048145696_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen

/-! ## Where the product reads its two operands

The dimension numbers contract axis 1 of the left operand with axis 0 of the right one; the left operand's axis 0 is
the result's axis 0 and the right operand's axis 1 is the result's axis 1. Coordinate by coordinate, at result index
`o` and contraction index `k`, the left operand is read at (o 0, k) and the right operand at (k, o 1). -/

/-- Two coordinates of one result index at equal positions are equal. -/
private theorem coord_congr (o : S1024x256.Idx) (p q : Nat) (hp : p < S1024x256.rank) (hq : q < S1024x256.rank)
    (h : p = q) : (o ⟨p, hp⟩).val = (o ⟨q, hq⟩).val := by subst h; rfl

/-- The left operand's row is the result's row. -/
theorem lhs_dot_S1024x4096_S4096x256_S1024x256_1_0_0_1_n_n_0 (o : S1024x256.Idx) (k : dot_S1024x4096_S4096x256_S1024x256_1_0_0_1_n_n.contr.Idx) :
    (dot_S1024x4096_S4096x256_S1024x256_1_0_0_1_n_n.lhsIdx o k 0).val = (o 0).val := by
  unfold DotDims.lhsIdx
  rw [dif_neg (show ¬ (0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  simp only [Fin.val_cast]
  exact coord_congr o _ _ _ _ (by decide)

/-- The left operand's column is the contraction index. -/
theorem lhs_dot_S1024x4096_S4096x256_S1024x256_1_0_0_1_n_n_1 (o : S1024x256.Idx) (k : dot_S1024x4096_S4096x256_S1024x256_1_0_0_1_n_n.contr.Idx) :
    (dot_S1024x4096_S4096x256_S1024x256_1_0_0_1_n_n.lhsIdx o k 1).val = (k ⟨0, by decide⟩).val :=
  dot_S1024x4096_S4096x256_S1024x256_1_0_0_1_n_n.lhsIdx_val_of_single (cl := 1) rfl o k

/-- The right operand's row is the contraction index. -/
theorem rhs_dot_S1024x4096_S4096x256_S1024x256_1_0_0_1_n_n_0 (o : S1024x256.Idx) (k : dot_S1024x4096_S4096x256_S1024x256_1_0_0_1_n_n.contr.Idx) :
    (dot_S1024x4096_S4096x256_S1024x256_1_0_0_1_n_n.rhsIdx o k 0).val = (k ⟨0, by decide⟩).val :=
  dot_S1024x4096_S4096x256_S1024x256_1_0_0_1_n_n.rhsIdx_val_of_single (cr := 0) rfl o k

/-- The right operand's column is the result's column. -/
theorem rhs_dot_S1024x4096_S4096x256_S1024x256_1_0_0_1_n_n_1 (o : S1024x256.Idx) (k : dot_S1024x4096_S4096x256_S1024x256_1_0_0_1_n_n.contr.Idx) :
    (dot_S1024x4096_S4096x256_S1024x256_1_0_0_1_n_n.rhsIdx o k 1).val = (o 1).val := by
  unfold DotDims.rhsIdx
  rw [dif_neg (show ¬ (1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  simp only [Fin.val_cast]
  exact coord_congr o _ _ _ _ (by decide)

/-- The contraction shape has one axis, of extent 4096. -/
theorem pay3_contr_rank : dot_S1024x4096_S4096x256_S1024x256_1_0_0_1_n_n.contr.rank = 1 := rfl
theorem pay3_contr_size : dot_S1024x4096_S4096x256_S1024x256_1_0_0_1_n_n.contr.size ⟨0, by decide⟩ = 4096 := rfl

/-- The matrix product into the zero accumulator, at (r, j): the plain sum over the contracted axis. -/
theorem pay3_matmul_zero_apply (a : FVec Ideal S1024x4096 .bf16) (b : FVec Ideal S4096x256 .bf16) (r : Fin 1024) (j : Fin 256) :
    (matmul (F := Ideal) dot_S1024x4096_S4096x256_S1024x256_1_0_0_1_n_n none a b (constant (F := Ideal) S1024x256 .f32 0x00000000#32) (ix2 r j) : EReal)
      = ∑ k : Fin 4096, (a (ix2 r k) : EReal) * (b (ix2 k j) : EReal) := by
  simp only [matmul]
  rw [Ideal.matmul_constant_zero_apply,
    ← Equiv.sum_comp (contrEquiv1 dot_S1024x4096_S4096x256_S1024x256_1_0_0_1_n_n 4096 pay3_contr_rank pay3_contr_size).symm]
  refine Finset.sum_congr rfl fun k _ => ?_
  have hk := contrEquiv1_symm_val dot_S1024x4096_S4096x256_S1024x256_1_0_0_1_n_n 4096 pay3_contr_rank pay3_contr_size k
  have hl : dot_S1024x4096_S4096x256_S1024x256_1_0_0_1_n_n.lhsIdx (ix2 r j) ((contrEquiv1 dot_S1024x4096_S4096x256_S1024x256_1_0_0_1_n_n 4096 pay3_contr_rank pay3_contr_size).symm k) = ix2 r k := by
    funext ax; apply Fin.ext
    match ax with
    | ⟨0, _⟩ => exact lhs_dot_S1024x4096_S4096x256_S1024x256_1_0_0_1_n_n_0 _ _
    | ⟨1, _⟩ => exact (lhs_dot_S1024x4096_S4096x256_S1024x256_1_0_0_1_n_n_1 _ _).trans hk
  have hr : dot_S1024x4096_S4096x256_S1024x256_1_0_0_1_n_n.rhsIdx (ix2 r j) ((contrEquiv1 dot_S1024x4096_S4096x256_S1024x256_1_0_0_1_n_n 4096 pay3_contr_rank pay3_contr_size).symm k) = ix2 k j := by
    funext ax; apply Fin.ext
    match ax with
    | ⟨0, _⟩ => exact (rhs_dot_S1024x4096_S4096x256_S1024x256_1_0_0_1_n_n_0 _ _).trans hk
    | ⟨1, _⟩ => exact rhs_dot_S1024x4096_S4096x256_S1024x256_1_0_0_1_n_n_1 _ _
  rw [hl, hr]

theorem pay3_apply (x0 : Vec Ideal S1024x4096 .bf16) (w : Vec Ideal S4096x256 .bf16) (x4 : Vec Ideal S1x256 .f32)
    (r : Fin 1024) (j : Fin 256) :
    (k0_pay3 x0 w x4 (ix2 r j) : EReal)
      = (∑ k : Fin 4096, (x0 (ix2 r k) : EReal) * (w (ix2 k j) : EReal)) + (x4 (ix2 (0 : Fin 1) j) : EReal) := by
  unfold k0_pay3
  rw [addf_apply, shapeCast_self, shapeCast_self, pay3_matmul_zero_apply, broadcastTo_1b_ab_apply]

end Cert.KernelIdeal.KPay

end
-- ==== Proof.KValue.lean ====
/-
  The kernel's result array after its run, over the extended reals: the specification's result of the argument arrays.

  Along the grid (point t = 8n + r: column block n, row block r) the scratch after point t holds column block n's
  weights: a point with r = 0 stores them (from its code, sign and scale blocks, which are columns 256n .. of the
  arrays); a point with r > 0 finds what its predecessor left, and the predecessor has the same n. So every point's
  output block is rows 1024r .., columns 256n .. of the 8192 x 11008 product-plus-bias, every point writes its block
  back, the 344 blocks tile the array, and the host's last step lays the array out as 4 x 2048 x 11008.
-/
import proofs.«404938_j16003048145696_2_alg».proof.Proof.KBlocks
import proofs.«404938_j16003048145696_2_alg».proof.Proof.KPieces
import proofs.«404938_j16003048145696_2_alg».proof.Proof.KWeight
import proofs.«404938_j16003048145696_2_alg».proof.Proof.KMatmul
import Idealize.ShloMosaic.Lib.Pipeline.Value
import Idealize.ShloMosaic.Lib.StableHlo.Run
import Idealize.ShloMosaic.Lib.Tactic

noncomputable section

set_option maxRecDepth 16384

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KPay Cert.Dequant

variable (m : (ℓ : Loc nD τ sig) → Buf (Elt Ideal) ℓ) (ρ : Dev nD → PrngReg)

/-! ## The 8192 x 11008 result -/

/-- Row R, column n of the product-plus-bias, x read as 8192 rows. -/
def out2 (c : Dev nD) (R : Fin 8192) (n : Fin 11008) : EReal :=
  (∑ k : Fin 4096, (xA m c (ix3 (⟨R.val / 2048, by omega⟩ : Fin 4) (⟨R.val % 2048, by omega⟩ : Fin 2048) k) : EReal)
      * Wt (qA m c) (gA m c) (sA m c) k n)
    + (bA m c (ix1 n) : EReal)

/-- The same as an array. -/
def G2 (c : Dev nD) : Vec Ideal S8192x11008 .f32 :=
  fun i => out2 m c ⟨(i 0).val, idx2_lt0 i⟩ ⟨(i 1).val, idx2_lt1 i⟩

/-! ## The scratch along the grid -/

/-- The weight block a point that starts a column block stores, read at (k, j): the weight at row k, column 256n + j. -/
theorem wblk_apply (c : Dev nD) (t : Fin cfg0.N) (k : Fin 4096) (j : Fin 256) :
    (wpay (qblk m c t) (gblk m c t) (sblk m c t) (ix2 k j) : EReal) = Wt (qA m c) (gA m c) (sA m c) k (col t j) := by
  refine (wpay_apply (qblk m c t) (gblk m c t) (sblk m c t) k j).trans ?_
  rw [qblk_apply, gblk_apply, sblk_apply]
  rfl

/-- After every point the scratch holds its column block's weights. -/
theorem scratch_eq (c : Dev nD) : ∀ (n : ℕ) (h : n < cfg0.N) (k : Fin 4096) (j : Fin 256),
    ((outsAt0 m c n h).2 (ix2 k j) : EReal) = Wt (qA m c) (gA m c) (sA m c) k (col ⟨n, h⟩ j) := by
  intro n
  induction n with
  | zero =>
    intro h k j
    have h0 : (⟨0, h⟩ : Fin cfg0.N).val % 8 = 0 := rfl
    generalize ht : (⟨0, h⟩ : Fin cfg0.N) = t at h0
    have e : outsAt0 m c 0 h = outsAt0 m c t.val t.isLt := by subst ht; rfl
    rw [e, outsAt0_A m c t h0]
    dsimp only
    refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 k j)).trans ?_
    exact wblk_apply m c t k j
  | succ n ih =>
    intro h k j
    by_cases h0 : (n + 1) % 8 = 0
    · generalize ht : (⟨n + 1, h⟩ : Fin cfg0.N) = t
      have h0' : t.val % 8 = 0 := by subst ht; exact h0
      have e : outsAt0 m c (n + 1) h = outsAt0 m c t.val t.isLt := by subst ht; rfl
      rw [e, outsAt0_A m c t h0']
      dsimp only
      refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0') (iblk m c 0 t) (iblk m c 1 t) (iblk m c 2 t) (iblk m c 3 t) (iblk m c 4 t)) (ix2 k j)).trans ?_
      exact wblk_apply m c t k j
    · have hB : ¬(⟨n + 1, h⟩ : Fin cfg0.N).val % 8 = 0 := h0
      rw [outsAt0_B m c ⟨n + 1, h⟩ hB]
      dsimp only [sout0_B_0]
      refine (ih (Nat.lt_of_succ_lt h) k j).trans ?_
      have hN := lt_of_lt_of_eq h N_0
      congr 1
      apply Fin.ext
      show 256 * (n / 8) + j.val = 256 * ((n + 1) / 8) + j.val
      omega

/-! ## Every point's output block -/

theorem out_eq (c : Dev nD) (t : Fin cfg0.N) (r : Fin 1024) (j : Fin 256) :
    ((outsAt0 m c t.val t.isLt).1 (ix2 r j) : EReal) = out2 m c (row t r) (col t j) := by
  by_cases h0 : t.val % 8 = 0
  · rw [outsAt0_A m c t h0]
    dsimp only
    refine (congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 r j)).trans ?_
    refine (pay3_apply (xblk m c t) (wpay (qblk m c t) (gblk m c t) (sblk m c t)) (bblk m c t) r j).trans ?_
    unfold out2
    rw [bblk_apply]
    congr 1
    refine Finset.sum_congr rfl fun k _ => ?_
    rw [xblk_apply, wblk_apply]
  · rw [outsAt0_B m c t h0]
    dsimp only
    refine (congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2) (ix2 r j)).trans ?_
    refine (pay3_apply (xblk m c t) _ (bblk m c t) r j).trans ?_
    unfold out2
    rw [bblk_apply]
    congr 1
    refine Finset.sum_congr rfl fun k _ => ?_
    rw [xblk_apply, scratch_eq m c (t.val - 1) (Nat.lt_of_le_of_lt (Nat.sub_le _ _) t.isLt) k j]
    have hN := tlt t
    congr 2
    apply Fin.ext
    show 256 * ((t.val - 1) / 8) + j.val = 256 * (t.val / 8) + j.val
    omega

/-! ## From blocks to the array -/

/-- What point t writes back is block t of the 8192 x 11008 result. -/
theorem flushed_eq (c : Dev nD) (t : Fin cfg0.N) (hf : (cfg0.win 5).flush t = true) :
    (dats m 0 c).flushed 5 t = ((cfg0.win 5).blk t).view.read (Elt Ideal) (G2 m c) := by
  obtain ⟨-, -, -, -, -, -, -, -, -, -, e0, e1⟩ := idx_facts t
  show (cfg0.win 5).cut (grid0.coords t) ((dats m 0 c).after 5 t) = _
  rw [after0_5]
  funext y
  rw [View.read_apply]
  show ((outsAt0 m c t.val t.isLt).1 : Vec Ideal S1024x256 .f32) y = G2 m c (((cfg0.win 5).blk t).view.emb y)
  obtain ⟨r, j, rfl⟩ : ∃ (r : Fin 1024) (j : Fin 256), y = ix2 r j := ⟨y 0, y 1, eq_ix2 y⟩
  refine (out_eq m c t r j).trans ?_
  unfold G2
  congr 1
  · apply Fin.ext
    show 1024 * (t.val % 8) + r.val = win0_5.index t (0 : Fin 2) * 1024 + 1 * r.val
    rw [e0]; omega
  · apply Fin.ext
    show 256 * (t.val / 8) + j.val = win0_5.index t (1 : Fin 2) * 256 + 1 * j.val
    rw [e1]; omega

/-- An index of the array is in point t's block iff each coordinate is in the block's range on its axis. -/
theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v3).slice (win0_5.rect t)).set ↔ _
  rw [View.set_slice_whole, Rect.mem_set_unit]
  exact Iff.rfl

/-- The 344 blocks tile the array: (R, n) lies in the block of point 8 (n / 256) + R / 1024. -/
theorem cover (i : S8192x11008.Idx) : ∃ t : Fin cfg0.N, (cfg0.win 5).flush t = true ∧ i ∈ ((cfg0.win 5).blk t).view.set := by
  have hi0 : (i 0).val < 8192 := idx2_lt0 i
  have hi1 : (i 1).val < 11008 := idx2_lt1 i
  have hlt : 8 * ((i 1).val / 256) + (i 0).val / 1024 < cfg0.N := lt_of_lt_of_eq (by omega) N_0.symm
  refine ⟨⟨8 * ((i 1).val / 256) + (i 0).val / 1024, hlt⟩, flush0_5 _, ?_⟩
  obtain ⟨-, -, -, -, -, -, -, -, -, -, e0, e1⟩ := idx_facts ⟨8 * ((i 1).val / 256) + (i 0).val / 1024, hlt⟩
  rw [mem_blk]
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 256 ≤ (i 1).val ∧ (i 1).val < win0_5.index _ (1 : Fin 2) * 256 + 256
    rw [e1]; dsimp only; omega

/-- So the kernel's 8192 x 11008 array ends holding the product-plus-bias. -/
theorem final (c : Dev nD) : (dats m 0 c).arrAt 5 cfg0.N = G2 m c :=
  (dats m 0 c).arrAt_eq_of_cover 5 (G2 m c) (flushed_eq m c) (cover)

/-! ## The host's last step and the run -/

/-- Laid out as 4 x 2048 x 11008 (row 2048a + b goes to (a, b)), the array is the specification's result. -/
theorem result_eq (c : Dev nD) :
    Pipeline.afterTail₀ cfgs (dats m) 0 (V0 m) [hostOps1] c main_v4 = Out (xA m c) (qA m c) (gA m c) (sA m c) (bA m c) := by
  unfold Pipeline.afterTail₀
  show StableHlo.after hostOps1 _ (Proc.devRef .tc main_v4) = _
  after_results
  rw [(Pipeline.withArrays_arr spec0 launch0.win.arr_inj c _ _ 5).trans (final m c)]
  funext i
  obtain ⟨a, b, n, rfl⟩ : ∃ (a : Fin 4) (b : Fin 2048) (n : Fin 11008), i = ix3 a b n := ⟨i 0, i 1, i 2, eq_ix3 i⟩
  show shapeCast S4x2048x11008 (G2 m c) shapeCasts_S8192x11008_S4x2048x11008 (ix3 a b n) = _
  refine (shapeCast_apply _ _ _ (ix2 (⟨2048 * a.val + b.val, by omega⟩ : Fin 8192) n) ?_).trans ?_
  · rw [Shape.rowMajor_val_two, Shape.rowMajor_val_three]
    show (2048 * a.val + b.val) * 11008 + n.val = (a.val * 2048 + b.val) * 11008 + n.val
    omega
  · show out2 m c ⟨2048 * a.val + b.val, _⟩ ⟨n.val, _⟩ = _
    unfold out2 Out
    congr 1
    refine Finset.sum_congr rfl fun k _ => ?_
    congr 2
    congr 1
    · apply Fin.ext; show (2048 * a.val + b.val) / 2048 = a.val; omega
    · apply Fin.ext; show (2048 * a.val + b.val) % 2048 = b.val; omega

theorem run :
    θ_run (defs (F := Ideal)) (onTc (τ := τ) (main (F := Ideal))) ⟨m, fun _ => 0, ρ⟩ fun r => ∀ c : Dev nD,
      r.2.mem ((c.tc : Thread nD τ).loc main_v4)
        = Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KVal

end
-- ==== Proof.RefTerm.lean ====
/-
  The reference's result as one term of its argument arrays, stage by stage: the sixteen magnitudes as a table; the
  4-bit codes (each packed word broadcast over eight shifts 0, 4, ..., 28, shifted right and masked with 15), an index
  normalisation (a negative code plus 16) that never fires since a masked code is never negative, the table gathered
  at the codes and laid out as 4096 x 11008; the sign bits (each packed word over thirty-two shifts, masked with 1)
  laid out likewise; the weights (magnitude times the column's scale, negated where the sign bit is 1); and the
  result, x as 8192 x 4096 times the weights, laid out as 4 x 2048 x 11008, plus the bias along the last axis.
-/
import proofs.«404938_j16003048145696_2_alg».proof.Proof.Gen.ReferenceIdeal

noncomputable section

namespace Cert.ReferenceIdeal.RefVal

open Idealize.ShloMosaic Cert.ReferenceIdeal Cert.ReferenceIdeal.Facts₀

variable {F : FTy → Type} [FloatOps F]

/-- The sixteen magnitudes, as the constant array the program builds. -/
def tbl : FVec F S16 .f32 := fun i => FloatOps.ofBits .f32 (lit0 (S16.rowMajor i))

/-- The eight nibble shifts 0, 4, ..., 28 (zero plus four times the position). -/
def nibShifts : IVec S8 32 :=
  addi (broadcastInDim S8 ![] bcast_S_S8 (constantI S_ 32 0#32))
    (muli (broadcastInDim S8 ![] bcast_S_S8 (constantI S_ 32 4#32)) (iotaInDim S8 32 0))

/-- The 4-bit codes: word (a, n) over the eight shifts, shifted right and masked with 15. -/
def codes (qw : Vec F S512x11008 .i32) : IVec S512x8x11008 32 :=
  andi
    (Host.shrsi
      (broadcastInDim S512x8x11008 ![0, 1, 2] bcast_S512x1x11008_S512x8x11008_0_1_2
        (broadcastInDim S512x1x11008 ![0, 2] bcast_S512x11008_S512x1x11008_0_2 qw))
      (broadcastInDim S512x8x11008 ![0, 1, 2] bcast_S1x8x1_S512x8x11008_0_1_2
        (broadcastInDim S1x8x1 ![1] bcast_S8_S1x8x1_1 nibShifts)))
    (broadcastInDim S512x8x11008 ![] bcast_S_S512x8x11008 (constantI S_ 32 15#32))

/-- The codes as the gather takes them: a negative one moved up by 16 (none is). -/
def codesNorm (qw : Vec F S512x11008 .i32) : IVec S512x8x11008 32 :=
  select (cmpi .slt (codes qw) (broadcastInDim S512x8x11008 ![] bcast_S_S512x8x11008 (constantI S_ 32 0#32)))
    (addi (codes qw) (broadcastInDim S512x8x11008 ![] bcast_S_S512x8x11008 (constantI S_ 32 16#32)))
    (codes qw)

/-- The magnitudes: the table gathered at the codes, laid out as 4096 x 11008 (row 8a + s from code (a, s)). -/
def mags (qw : Vec F S512x11008 .i32) : FVec F S4096x11008 .f32 :=
  shapeCast S4096x11008
    (Host.gather gather_S16_S512x8x11008x1_S512x8x11008_n_0_n_n_0_3_1 (tbl (F := F))
      (broadcastInDim S512x8x11008x1 ![0, 1, 2] bcast_S512x8x11008_S512x8x11008x1_0_1_2 (codesNorm qw)))
    shapeCasts_S512x8x11008_S4096x11008

/-- The sign bits: word (a, n) over the thirty-two shifts 0..31, masked with 1, laid out as 4096 x 11008. -/
def sbits (sg : Vec F S128x11008 .i32) : IVec S4096x11008 32 :=
  shapeCast S4096x11008
    (andi
      (Host.shrsi
        (broadcastInDim S128x32x11008 ![0, 1, 2] bcast_S128x1x11008_S128x32x11008_0_1_2
          (broadcastInDim S128x1x11008 ![0, 2] bcast_S128x11008_S128x1x11008_0_2 sg))
        (broadcastInDim S128x32x11008 ![0, 1, 2] bcast_S1x32x1_S128x32x11008_0_1_2
          (broadcastInDim S1x32x1 ![1] bcast_S32_S1x32x1_1 (iotaInDim S32 32 0))))
      (broadcastInDim S128x32x11008 ![] bcast_S_S128x32x11008 (constantI S_ 32 1#32)))
    shapeCasts_S128x32x11008_S4096x11008

/-- Magnitude times the column's scale. -/
def scaled (qw : Vec F S512x11008 .i32) (sc : Vec F S1x11008 .f32) : FVec F S4096x11008 .f32 :=
  mulf (mags qw) (broadcastInDim S4096x11008 ![0, 1] bcast_S1x11008_S4096x11008_0_1 sc)

/-- The weights: the scaled magnitude, negated where the sign bit is 1. -/
def weights (qw : Vec F S512x11008 .i32) (sg : Vec F S128x11008 .i32) (sc : Vec F S1x11008 .f32) : FVec F S4096x11008 .f32 :=
  select (cmpi .eq (sbits sg) (broadcastInDim S4096x11008 ![] bcast_S_S4096x11008 (constantI S_ 32 1#32)))
    (Host.negf (scaled qw sc)) (scaled qw sc)

/-- The result: x as 8192 x 4096 times the weights, as 4 x 2048 x 11008, plus the bias along the last axis. -/
def refTerm (x : Vec F S4x2048x4096 .f32) (qw : Vec F S512x11008 .i32) (sg : Vec F S128x11008 .i32) (sc : Vec F S1x11008 .f32)
    (bias : Vec F S11008 .f32) : FVec F S4x2048x11008 .f32 :=
  addf
    (shapeCast S4x2048x11008
      (Host.dotGeneral dot_S8192x4096_S4096x11008_S8192x11008_1_0_0_1_n_n none
        (shapeCast S8192x4096 x shapeCasts_S4x2048x4096_S8192x4096) (weights qw sg sc))
      shapeCasts_S8192x11008_S4x2048x11008)
    (broadcastInDim S4x2048x11008 ![0, 1, 2] bcast_S1x1x11008_S4x2048x11008_0_1_2
      (broadcastInDim S1x1x11008 ![2] bcast_S11008_S1x1x11008_2 bias))

end Cert.ReferenceIdeal.RefVal

end
-- ==== Proof.RefRun.lean ====
/-
  The reference's run: its fifty-odd host operations in order (the outlined selection inlined at its call), every
  weakly fair execution of them terminating with the result buffer at the composed term of the argument arrays and the
  arguments unchanged.
-/
import proofs.«404938_j16003048145696_2_alg».proof.Proof.RefTerm
import Idealize.ShloMosaic.Lib.StableHlo.Run

noncomputable section

namespace Cert.ReferenceIdeal.RefVal

open Idealize.ShloMosaic Idealize.ShloMosaic.TcCoe Idealize.SL.Sem Idealize.ShloMosaic.StableHlo
open Cert.ReferenceIdeal Cert.ReferenceIdeal.Facts₀

variable {F : FTy → Type} [FloatOps F]

/-- @main's operations in order, the outlined selection's one operation at its call. -/
abbrev ops : List (HloOp τ sig (Elt F)) :=
  [ -- the table of sixteen magnitudes
    nullary main_cst (fun i => FloatOps.ofBits .f32 (lit0 (S16.rowMajor i))),
    -- the eight nibble shifts: 0 + 4 * position
    nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v1 main_v0 main_v2 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v3 (broadcastInDim S8 ![] bcast_S_S8 : (⟨S_, .i32⟩ : BufTy).Contents (Elt F) → (⟨S8, .i32⟩ : BufTy).Contents (Elt F)),
    binary main_v3 main_v2 main_v4 (addi : (⟨S8, .i32⟩ : BufTy).Contents (Elt F) → (⟨S8, .i32⟩ : BufTy).Contents (Elt F) → (⟨S8, .i32⟩ : BufTy).Contents (Elt F)),
    -- the 4-bit codes: each packed word over the eight shifts, shifted right, masked with 15
    unary main_arg1 main_v5 (broadcastInDim S512x1x11008 ![0, 2] bcast_S512x11008_S512x1x11008_0_2 : (⟨S512x11008, .i32⟩ : BufTy).Contents (Elt F) → (⟨S512x1x11008, .i32⟩ : BufTy).Contents (Elt F)),
    unary main_v4 main_v6 (broadcastInDim S1x8x1 ![1] bcast_S8_S1x8x1_1 : (⟨S8, .i32⟩ : BufTy).Contents (Elt F) → (⟨S1x8x1, .i32⟩ : BufTy).Contents (Elt F)),
    unary main_v5 main_v7 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    unary main_v6 main_v8 (broadcastInDim S512x8x11008 ![0, 1, 2] bcast_S1x8x1_S512x8x11008_0_1_2 : (⟨S1x8x1, .i32⟩ : BufTy).Contents (Elt F) → (⟨S512x8x11008, .i32⟩ : BufTy).Contents (Elt F)),
    binary main_v7 main_v8 main_v9 (Host.shrsi : (⟨S512x8x11008, .i32⟩ : BufTy).Contents (Elt F) → (⟨S512x8x11008, .i32⟩ : BufTy).Contents (Elt F) → (⟨S512x8x11008, .i32⟩ : BufTy).Contents (Elt F)),
    nullary main_c_1 (constantI S_ 32 15#32),
    unary main_c_1 main_v10 (broadcastInDim S512x8x11008 ![] bcast_S_S512x8x11008 : (⟨S_, .i32⟩ : BufTy).Contents (Elt F) → (⟨S512x8x11008, .i32⟩ : BufTy).Contents (Elt F)),
    binary main_v9 main_v10 main_v11 (andi : (⟨S512x8x11008, .i32⟩ : BufTy).Contents (Elt F) → (⟨S512x8x11008, .i32⟩ : BufTy).Contents (Elt F) → (⟨S512x8x11008, .i32⟩ : BufTy).Contents (Elt F)),
    -- the index normalisation: a negative code plus 16, else the code
    nullary main_c_2 (constantI S_ 32 0#32),
    unary main_c_2 main_v12 (broadcastInDim S512x8x11008 ![] bcast_S_S512x8x11008 : (⟨S_, .i32⟩ : BufTy).Contents (Elt F) → (⟨S512x8x11008, .i32⟩ : BufTy).Contents (Elt F)),
    binary main_v11 main_v12 main_v13 (cmpi .slt : (⟨S512x8x11008, .i32⟩ : BufTy).Contents (Elt F) → (⟨S512x8x11008, .i32⟩ : BufTy).Contents (Elt F) → (⟨S512x8x11008, .i1⟩ : BufTy).Contents (Elt F)),
    nullary main_c_3 (constantI S_ 32 16#32),
    unary main_c_3 main_v14 (broadcastInDim S512x8x11008 ![] bcast_S_S512x8x11008 : (⟨S_, .i32⟩ : BufTy).Contents (Elt F) → (⟨S512x8x11008, .i32⟩ : BufTy).Contents (Elt F)),
    binary main_v11 main_v14 main_v15 (addi : (⟨S512x8x11008, .i32⟩ : BufTy).Contents (Elt F) → (⟨S512x8x11008, .i32⟩ : BufTy).Contents (Elt F) → (⟨S512x8x11008, .i32⟩ : BufTy).Contents (Elt F)),
    ternary main_v13 main_v15 main_v11 main_v16 (select : (⟨S512x8x11008, .i1⟩ : BufTy).Contents (Elt F) → (⟨S512x8x11008, .i32⟩ : BufTy).Contents (Elt F) → (⟨S512x8x11008, .i32⟩ : BufTy).Contents (Elt F) → (⟨S512x8x11008, .i32⟩ : BufTy).Contents (Elt F)),
    -- the magnitudes: the table gathered at the codes, as 4096 x 11008
    unary main_v16 main_v17 (broadcastInDim S512x8x11008x1 ![0, 1, 2] bcast_S512x8x11008_S512x8x11008x1_0_1_2 : (⟨S512x8x11008, .i32⟩ : BufTy).Contents (Elt F) → (⟨S512x8x11008x1, .i32⟩ : BufTy).Contents (Elt F)),
    binary main_cst main_v17 main_v18 ((fun x i => Host.gather gather_S16_S512x8x11008x1_S512x8x11008_n_0_n_n_0_3_1 x i) : (⟨S16, .f32⟩ : BufTy).Contents (Elt F) → (⟨S512x8x11008x1, .i32⟩ : BufTy).Contents (Elt F) → (⟨S512x8x11008, .f32⟩ : BufTy).Contents (Elt F)),
    reshape main_v18 main_v19 rfl shapeCasts_S512x8x11008_S4096x11008,
    -- the sign bits: each packed word over the thirty-two shifts, masked with 1, as 4096 x 11008
    nullary main_v20 (iotaInDim S32 32 0),
    unary main_arg2 main_v21 (broadcastInDim S128x1x11008 ![0, 2] bcast_S128x11008_S128x1x11008_0_2 : (⟨S128x11008, .i32⟩ : BufTy).Contents (Elt F) → (⟨S128x1x11008, .i32⟩ : BufTy).Contents (Elt F)),
    unary main_v20 main_v22 (broadcastInDim S1x32x1 ![1] bcast_S32_S1x32x1_1 : (⟨S32, .i32⟩ : BufTy).Contents (Elt F) → (⟨S1x32x1, .i32⟩ : BufTy).Contents (Elt F)),
    unary main_v21 main_v23 (broadcastInDim S128x32x11008 ![0, 1, 2] bcast_S128x1x11008_S128x32x11008_0_1_2 : (⟨S128x1x11008, .i32⟩ : BufTy).Contents (Elt F) → (⟨S128x32x11008, .i32⟩ : BufTy).Contents (Elt F)),
    unary main_v22 main_v24 (broadcastInDim S128x32x11008 ![0, 1, 2] bcast_S1x32x1_S128x32x11008_0_1_2 : (⟨S1x32x1, .i32⟩ : BufTy).Contents (Elt F) → (⟨S128x32x11008, .i32⟩ : BufTy).Contents (Elt F)),
    binary main_v23 main_v24 main_v25 (Host.shrsi : (⟨S128x32x11008, .i32⟩ : BufTy).Contents (Elt F) → (⟨S128x32x11008, .i32⟩ : BufTy).Contents (Elt F) → (⟨S128x32x11008, .i32⟩ : BufTy).Contents (Elt F)),
    nullary main_c_4 (constantI S_ 32 1#32),
    unary main_c_4 main_v26 (broadcastInDim S128x32x11008 ![] bcast_S_S128x32x11008 : (⟨S_, .i32⟩ : BufTy).Contents (Elt F) → (⟨S128x32x11008, .i32⟩ : BufTy).Contents (Elt F)),
    binary main_v25 main_v26 main_v27 (andi : (⟨S128x32x11008, .i32⟩ : BufTy).Contents (Elt F) → (⟨S128x32x11008, .i32⟩ : BufTy).Contents (Elt F) → (⟨S128x32x11008, .i32⟩ : BufTy).Contents (Elt F)),
    reshape main_v27 main_v28 rfl shapeCasts_S128x32x11008_S4096x11008,
    -- magnitude times the column's scale
    unary main_arg3 main_v29 (broadcastInDim S4096x11008 ![0, 1] bcast_S1x11008_S4096x11008_0_1 : (⟨S1x11008, .f32⟩ : BufTy).Contents (Elt F) → (⟨S4096x11008, .f32⟩ : BufTy).Contents (Elt F)),
    binary main_v19 main_v29 main_v30 (mulf : (⟨S4096x11008, .f32⟩ : BufTy).Contents (Elt F) → (⟨S4096x11008, .f32⟩ : BufTy).Contents (Elt F) → (⟨S4096x11008, .f32⟩ : BufTy).Contents (Elt F)),
    -- the weights: the scaled magnitude negated where the sign bit is 1 (the outlined selection, at its call)
    nullary main_c_5 (constantI S_ 32 1#32),
    unary main_c_5 main_v31 (broadcastInDim S4096x11008 ![] bcast_S_S4096x11008 : (⟨S_, .i32⟩ : BufTy).Contents (Elt F) → (⟨S4096x11008, .i32⟩ : BufTy).Contents (Elt F)),
    binary main_v28 main_v31 main_v32 (cmpi .eq : (⟨S4096x11008, .i32⟩ : BufTy).Contents (Elt F) → (⟨S4096x11008, .i32⟩ : BufTy).Contents (Elt F) → (⟨S4096x11008, .i1⟩ : BufTy).Contents (Elt F)),
    unary main_v30 main_v33 (Host.negf : (⟨S4096x11008, .f32⟩ : BufTy).Contents (Elt F) → (⟨S4096x11008, .f32⟩ : BufTy).Contents (Elt F)),
    TRef.ternary (.of main_v32) (.of main_v33) (.of main_v30) main_call0.v0 select,
    -- x as 8192 x 4096 times the weights, as 4 x 2048 x 11008, plus the bias along the last axis
    reshape main_arg0 main_v35 rfl shapeCasts_S4x2048x4096_S8192x4096,
    binary main_v35 main_v34 main_v36 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    reshape main_v36 main_v37 rfl shapeCasts_S8192x11008_S4x2048x11008,
    unary main_arg4 main_v38 (broadcastInDim S1x1x11008 ![2] bcast_S11008_S1x1x11008_2 : (⟨S11008, .f32⟩ : BufTy).Contents (Elt F) → (⟨S1x1x11008, .f32⟩ : BufTy).Contents (Elt F)),
    unary main_v38 main_v39 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    binary main_v37 main_v39 main_v40 (addf : (⟨S4x2048x11008, .f32⟩ : BufTy).Contents (Elt F) → (⟨S4x2048x11008, .f32⟩ : BufTy).Contents (Elt F) → (⟨S4x2048x11008, .f32⟩ : BufTy).Contents (Elt F)) ]

set_option maxRecDepth 1024 in
/-- @main is that straight line: the outlined function unfolded at its call, both sides are one chain of steps once
    sequencing is reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨ nullary_bufs_sub .., nullary_bufs_sub .., nullary_bufs_sub .., unary_bufs_sub .., binary_bufs_sub .., nullary_bufs_sub ..,
    unary_bufs_sub .., binary_bufs_sub .., unary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., reshape_bufs_sub .., nullary_bufs_sub .., unary_bufs_sub .., unary_bufs_sub .., unary_bufs_sub ..,
    unary_bufs_sub .., binary_bufs_sub .., nullary_bufs_sub .., unary_bufs_sub .., binary_bufs_sub .., reshape_bufs_sub ..,
    unary_bufs_sub .., binary_bufs_sub .., nullary_bufs_sub .., unary_bufs_sub .., binary_bufs_sub .., unary_bufs_sub ..,
    ternary_bufs_sub .., reshape_bufs_sub .., binary_bufs_sub .., reshape_bufs_sub .., unary_bufs_sub .., unary_bufs_sub ..,
    binary_bufs_sub ..⟩

/-- The fold at the result buffer is the composed term: each operation's result read at its own buffer is its
    function's value at its operands' contents, and the stages of the term are those functions in that order. -/
theorem out_eq (V : Valuation τ sig (Elt F)) :
    after ops V (main_v40 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument's buffer: each keeps its contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On the one device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
        = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run defs _ _).mono (fun _ h c => ⟨(h c main_v40).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefVal

end
-- ==== Proof.RefWeights.lean ====
/-
  The reference's weights read at row k, column n, over the extended reals: the weight of the specification. The
  reshapes put code (k / 8, k mod 8, n) and sign bit (k / 32, k mod 32, n) at row k; shift number s of the eight is 4s
  and of the thirty-two is s; a masked code lies in 0..15, so the index normalisation leaves it alone and the gather
  reads the table exactly there, where the table holds the magnitude the sixteen-way selection gives.
-/
import proofs.«404938_j16003048145696_2_alg».proof.Proof.RefTerm
import proofs.«404938_j16003048145696_2_alg».proof.Proof.Spec
import Idealize.ShloMosaic.Lib.ValueIdx
import Idealize.ShloMosaic.Lib.Pipeline.Value
import Idealize.ShloMosaic.Lib.ValueLayout

noncomputable section

namespace Cert.ReferenceIdeal.RefVal

open Idealize.ShloMosaic Idealize.ShloMosaic.ValueIdx Cert.ReferenceIdeal Cert.ReferenceIdeal.Facts₀ Cert.Dequant

/-! ## Layout operations read at an index -/

section Reads
variable {α : Type}

/-- Row `k` of the 4096-row layout is row `(k / 8, k mod 8)` of the 512 x 8 one. -/
theorem cast8_apply (x : S512x8x11008.Idx → α) (h : S512x8x11008.ShapeCasts S4096x11008) (k : Fin 4096) (n : Fin 11008) :
    shapeCast S4096x11008 x h (ix2 k n)
      = x (ix3 (⟨k.val / 8, by omega⟩ : Fin 512) (⟨k.val % 8, by omega⟩ : Fin 8) n) := by
  refine shapeCast_apply x h (ix2 k n) _ ?_
  rw [Shape.rowMajor_val_three, Shape.rowMajor_val_two]
  show (k.val / 8 * 8 + k.val % 8) * 11008 + n.val = k.val * 11008 + n.val
  omega

/-- Row `k` of the 4096-row layout is row `(k / 32, k mod 32)` of the 128 x 32 one. -/
theorem cast32_apply (x : S128x32x11008.Idx → α) (h : S128x32x11008.ShapeCasts S4096x11008) (k : Fin 4096) (n : Fin 11008) :
    shapeCast S4096x11008 x h (ix2 k n)
      = x (ix3 (⟨k.val / 32, by omega⟩ : Fin 128) (⟨k.val % 32, by omega⟩ : Fin 32) n) := by
  refine shapeCast_apply x h (ix2 k n) _ ?_
  rw [Shape.rowMajor_val_three, Shape.rowMajor_val_two]
  show (k.val / 32 * 32 + k.val % 32) * 11008 + n.val = k.val * 11008 + n.val
  omega

/-- A packed code word spread over the eight shifts reads the word of its row and column. -/
theorem spread8_apply (x : S512x11008.Idx → α)
    (h1 : S512x11008.BroadcastsInDim S512x1x11008 (![0, 2] : Fin 2 → Fin S512x1x11008.rank))
    (h2 : S512x1x11008.BroadcastsInDim S512x8x11008 (![0, 1, 2] : Fin 3 → Fin S512x8x11008.rank))
    (a : Fin 512) (s : Fin 8) (n : Fin 11008) :
    broadcastInDim S512x8x11008 ![0, 1, 2] h2 (broadcastInDim S512x1x11008 ![0, 2] h1 x) (ix3 a s n) = x (ix2 a n) := by
  refine (broadcastInDim_apply _ h2 _ (ix3 a s n) (ix3 a (0 : Fin 1) n) ?_).trans ?_
  · intro ax
    match ax with
    | ⟨0, _⟩ => rfl
    | ⟨1, _⟩ => rfl
    | ⟨2, _⟩ => rfl
  · refine broadcastInDim_apply _ h1 _ (ix3 a (0 : Fin 1) n) (ix2 a n) ?_
    intro ax
    match ax with
    | ⟨0, _⟩ => rfl
    | ⟨1, _⟩ => rfl

/-- The eight shifts spread over rows and columns read the shift of their position. -/
theorem shifts8_apply (v : S8.Idx → α)
    (h1 : S8.BroadcastsInDim S1x8x1 (![1] : Fin 1 → Fin S1x8x1.rank))
    (h2 : S1x8x1.BroadcastsInDim S512x8x11008 (![0, 1, 2] : Fin 3 → Fin S512x8x11008.rank))
    (a : Fin 512) (s : Fin 8) (n : Fin 11008) :
    broadcastInDim S512x8x11008 ![0, 1, 2] h2 (broadcastInDim S1x8x1 ![1] h1 v) (ix3 a s n) = v (ix1 s) := by
  refine (broadcastInDim_apply _ h2 _ (ix3 a s n) (ix3 (0 : Fin 1) s (0 : Fin 1)) ?_).trans ?_
  · intro ax
    match ax with
    | ⟨0, _⟩ => rfl
    | ⟨1, _⟩ => rfl
    | ⟨2, _⟩ => rfl
  · refine broadcastInDim_apply _ h1 _ (ix3 (0 : Fin 1) s (0 : Fin 1)) (ix1 s) ?_
    intro ax
    match ax with
    | ⟨0, _⟩ => rfl

/-- A packed sign word spread over the thirty-two shifts reads the word of its row and column. -/
theorem spread32_apply (x : S128x11008.Idx → α)
    (h1 : S128x11008.BroadcastsInDim S128x1x11008 (![0, 2] : Fin 2 → Fin S128x1x11008.rank))
    (h2 : S128x1x11008.BroadcastsInDim S128x32x11008 (![0, 1, 2] : Fin 3 → Fin S128x32x11008.rank))
    (a : Fin 128) (b : Fin 32) (n : Fin 11008) :
    broadcastInDim S128x32x11008 ![0, 1, 2] h2 (broadcastInDim S128x1x11008 ![0, 2] h1 x) (ix3 a b n) = x (ix2 a n) := by
  refine (broadcastInDim_apply _ h2 _ (ix3 a b n) (ix3 a (0 : Fin 1) n) ?_).trans ?_
  · intro ax
    match ax with
    | ⟨0, _⟩ => rfl
    | ⟨1, _⟩ => rfl
    | ⟨2, _⟩ => rfl
  · refine broadcastInDim_apply _ h1 _ (ix3 a (0 : Fin 1) n) (ix2 a n) ?_
    intro ax
    match ax with
    | ⟨0, _⟩ => rfl
    | ⟨1, _⟩ => rfl

/-- The thirty-two shifts spread over rows and columns read the shift of their position. -/
theorem shifts32_apply (v : S32.Idx → α)
    (h1 : S32.BroadcastsInDim S1x32x1 (![1] : Fin 1 → Fin S1x32x1.rank))
    (h2 : S1x32x1.BroadcastsInDim S128x32x11008 (![0, 1, 2] : Fin 3 → Fin S128x32x11008.rank))
    (a : Fin 128) (b : Fin 32) (n : Fin 11008) :
    broadcastInDim S128x32x11008 ![0, 1, 2] h2 (broadcastInDim S1x32x1 ![1] h1 v) (ix3 a b n) = v (ix1 b) := by
  refine (broadcastInDim_apply _ h2 _ (ix3 a b n) (ix3 (0 : Fin 1) b (0 : Fin 1)) ?_).trans ?_
  · intro ax
    match ax with
    | ⟨0, _⟩ => rfl
    | ⟨1, _⟩ => rfl
    | ⟨2, _⟩ => rfl
  · refine broadcastInDim_apply _ h1 _ (ix3 (0 : Fin 1) b (0 : Fin 1)) (ix1 b) ?_
    intro ax
    match ax with
    | ⟨0, _⟩ => rfl

/-- The codes with a trailing unit axis read the code of the first three coordinates. -/
theorem unit4_apply (x : S512x8x11008.Idx → α)
    (h : S512x8x11008.BroadcastsInDim S512x8x11008x1 (![0, 1, 2] : Fin 3 → Fin S512x8x11008x1.rank))
    (a : Fin 512) (s : Fin 8) (n : Fin 11008) (u : Fin 1) :
    broadcastInDim S512x8x11008x1 ![0, 1, 2] h x (ix4 a s n u) = x (ix3 a s n) := by
  refine broadcastInDim_apply _ h _ (ix4 a s n u) (ix3 a s n) ?_
  intro ax
  match ax with
  | ⟨0, _⟩ => rfl
  | ⟨1, _⟩ => rfl
  | ⟨2, _⟩ => rfl

/-- The one-row scales spread down the 4096 rows read the scale of the column. -/
theorem scale_apply (x : S1x11008.Idx → α)
    (h : S1x11008.BroadcastsInDim S4096x11008 (![0, 1] : Fin 2 → Fin S4096x11008.rank))
    (k : Fin 4096) (n : Fin 11008) :
    broadcastInDim S4096x11008 ![0, 1] h x (ix2 k n) = x (ix2 (0 : Fin 1) n) := by
  refine broadcastInDim_apply _ h _ (ix2 k n) (ix2 (0 : Fin 1) n) ?_
  intro ax
  match ax with
  | ⟨0, _⟩ => rfl
  | ⟨1, _⟩ => rfl

end Reads

/-! ## The shift words and the masked words -/

/-- Shift number `s` of the eight, zero plus four times `s` as a 32-bit word, is `4 s`. -/
theorem shiftWord8_toNat (s : Nat) (hs : s < 8) : (IntOp.addi 0#32 (IntOp.muli 4#32 (BitVec.ofNat 32 s))).toNat = 4 * s := by
  interval_cases s <;> decide

/-- Shift number `b` of the thirty-two as a 32-bit word is `b`. -/
theorem shiftWord32_toNat (b : Nat) (hb : b < 32) : (BitVec.ofNat 32 b).toNat = b := by
  rw [BitVec.toNat_ofNat]; exact Nat.mod_eq_of_lt (by omega)

/-- The host's arithmetic shift right by a word below the width is the shift by its value. -/
theorem shrsi_host_of_lt (x y : BitVec 32) (m : Nat) (hy : y.toNat = m) (hm : m < 32) :
    IntOp.shrsi .host x y = x.sshiftRight m := by
  unfold IntOp.shrsi
  rw [if_pos (by omega)]
  show x.sshiftRight y.toNat = _
  rw [hy]

/-- A comparison for equality is the bit 1 exactly when the words are equal. -/
theorem cmpi_eq_one_iff {w : Nat} (a b : BitVec w) : IntOp.cmpi .eq a b = 1#1 ↔ a = b := by
  show BitVec.ofBool (a == b) = 1#1 ↔ a = b
  by_cases h : a = b
  · subst h; simp
  · have hb : (a == b) = false := by simpa using h
    rw [hb]
    exact ⟨fun h' => absurd h' (by decide), fun h' => absurd h' h⟩

/-- A word masked with 15 is one of the sixteen codes. -/
theorem masked_lt (x : BitVec 32) : (x &&& 15#32).toNat < 16 := by
  rw [BitVec.toNat_and]
  exact Nat.lt_succ_of_le Nat.and_le_right

/-- A word below sixteen is the word of a code. -/
theorem exists_code (c : BitVec 32) (hc : c.toNat < 16) : ∃ v : Fin 16, c = BitVec.ofNat 32 v.val :=
  ⟨⟨c.toNat, hc⟩, by simp⟩

/-! ## The gather and the table -/

local notation "G16" => gather_S16_S512x8x11008x1_S512x8x11008_n_0_n_n_0_3_1

/-- The gather of a sixteen-entry table at an array of start indices with a trailing unit axis reads the table at
    the start index, read signed and clamped into 0..15. -/
theorem gather16_apply {α : Type} {w : Nat} (x : S16.Idx → α) (idx : IVec S512x8x11008x1 w)
    (a : Fin 512) (s : Fin 8) (n : Fin 11008) :
    Host.gather G16 x idx (ix3 a s n)
      = x (ix1 (⟨min (idx (ix4 a s n (0 : Fin 1))).toInt.toNat 15, by omega⟩ : Fin 16)) := by
  unfold Host.gather
  congr 1
  funext ax
  obtain rfl : ax = 0 := Subsingleton.elim _ _
  refine Fin.ext ?_
  show (G16).start (ix3 a s n) idx 0 + (G16).batchCoord (ix3 a s n) 0 + (G16).offCoord (ix3 a s n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (G16).startIndexMap from List.mem_singleton.mpr rfl)]
  have hsi : (G16).siIdx (ix3 a s n) ⟨List.idxOf (0 : Fin 1) (G16).startIndexMap,
      List.idxOf_lt_length_iff.2 (List.mem_singleton.mpr rfl)⟩ = ix4 a s n (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The table at a code's position holds the magnitude the sixteen-way selection gives for the code. -/
theorem tbl_at {F : FTy → Type} [FloatOps F] (v : Fin 16) :
    tbl (F := F) (ix1 v) = magOf (F := F) (BitVec.ofNat 32 v.val) := by
  fin_cases v <;> rfl

/-- The index normalisation (a negative word plus 16) and the clamp into 0..15 leave a code alone. -/
theorem norm_clamp (v : Fin 16) :
    min (Scalar.select (IntOp.cmpi .slt (BitVec.ofNat 32 v.val) 0#32) (IntOp.addi (BitVec.ofNat 32 v.val) 16#32)
      (BitVec.ofNat 32 v.val)).toInt.toNat 15 = v.val := by
  fin_cases v <;> decide

/-- The table read at the normalised and clamped position of a code is the code's magnitude. -/
theorem tbl_code (c : BitVec 32) (hc : c.toNat < 16) (i : Fin 16)
    (hi : i.val = min (Scalar.select (IntOp.cmpi .slt c 0#32) (IntOp.addi c 16#32) c).toInt.toNat 15) :
    tbl (F := Ideal) (ix1 i) = magOf (F := Ideal) c := by
  obtain ⟨v, rfl⟩ := exists_code c hc
  obtain rfl : i = v := Fin.ext (hi.trans (norm_clamp v))
  exact tbl_at (F := Ideal) i

/-- A nibble is one of the sixteen codes. -/
theorem nib_lt (x : BitVec 32) (s : Nat) : (nib x s).toNat < 16 := masked_lt _

/-- A selection on an equality of words is the `if` on the equality. -/
theorem select_cmpi_eq {α : Type} {w : Nat} (a b : BitVec w) (A B : α) :
    Scalar.select (IntOp.cmpi .eq a b) A B = if a = b then A else B := by
  by_cases h : a = b
  · exact (if_pos ((cmpi_eq_one_iff a b).2 h)).trans (if_pos h).symm
  · exact (if_neg (fun h' => h ((cmpi_eq_one_iff a b).1 h'))).trans (if_neg h).symm

/-! ## The stages at an index -/

/-- The code at `(a, s, n)` is nibble `s` of word `(a, n)`. -/
theorem codes_apply (qw : Vec Ideal S512x11008 .i32) (a : Fin 512) (s : Fin 8) (n : Fin 11008) :
    codes (F := Ideal) qw (ix3 a s n) = nib (qw (ix2 a n)) s.val := by
  have e1 := spread8_apply qw bcast_S512x11008_S512x1x11008_0_2 bcast_S512x1x11008_S512x8x11008_0_1_2 a s n
  have e2 := shifts8_apply nibShifts bcast_S8_S1x8x1_1 bcast_S1x8x1_S512x8x11008_0_1_2 a s n
  show IntOp.andi (IntOp.shrsi .host
      (broadcastInDim S512x8x11008 ![0, 1, 2] bcast_S512x1x11008_S512x8x11008_0_1_2
        (broadcastInDim S512x1x11008 ![0, 2] bcast_S512x11008_S512x1x11008_0_2 qw) (ix3 a s n))
      (broadcastInDim S512x8x11008 ![0, 1, 2] bcast_S1x8x1_S512x8x11008_0_1_2
        (broadcastInDim S1x8x1 ![1] bcast_S8_S1x8x1_1 nibShifts) (ix3 a s n))) 15#32 = nib (qw (ix2 a n)) s.val
  rw [e1, e2]
  show IntOp.andi (IntOp.shrsi .host (qw (ix2 a n)) (IntOp.addi 0#32 (IntOp.muli 4#32 (BitVec.ofNat 32 s.val)))) 15#32 = _
  rw [shrsi_host_of_lt _ _ (4 * s.val) (shiftWord8_toNat s.val s.isLt) (by omega)]
  rfl

/-- The sign bit at row `k`, column `n` is bit `k mod 32` of word `(k / 32, n)`. -/
theorem sbits_apply (sg : Vec Ideal S128x11008 .i32) (k : Fin 4096) (n : Fin 11008) :
    sbits (F := Ideal) sg (ix2 k n) = sbit (sg (ix2 (⟨k.val / 32, by omega⟩ : Fin 128) n)) (k.val % 32) := by
  unfold sbits
  rw [cast32_apply]
  have e1 := spread32_apply sg bcast_S128x11008_S128x1x11008_0_2 bcast_S128x1x11008_S128x32x11008_0_1_2
    (⟨k.val / 32, by omega⟩ : Fin 128) (⟨k.val % 32, by omega⟩ : Fin 32) n
  have e2 := shifts32_apply (iotaInDim S32 32 0) bcast_S32_S1x32x1_1 bcast_S1x32x1_S128x32x11008_0_1_2
    (⟨k.val / 32, by omega⟩ : Fin 128) (⟨k.val % 32, by omega⟩ : Fin 32) n
  show IntOp.andi (IntOp.shrsi .host
      (broadcastInDim S128x32x11008 ![0, 1, 2] bcast_S128x1x11008_S128x32x11008_0_1_2
        (broadcastInDim S128x1x11008 ![0, 2] bcast_S128x11008_S128x1x11008_0_2 sg)
        (ix3 (⟨k.val / 32, by omega⟩ : Fin 128) (⟨k.val % 32, by omega⟩ : Fin 32) n))
      (broadcastInDim S128x32x11008 ![0, 1, 2] bcast_S1x32x1_S128x32x11008_0_1_2
        (broadcastInDim S1x32x1 ![1] bcast_S32_S1x32x1_1 (iotaInDim S32 32 0))
        (ix3 (⟨k.val / 32, by omega⟩ : Fin 128) (⟨k.val % 32, by omega⟩ : Fin 32) n))) 1#32 = _
  rw [e1, e2]
  show IntOp.andi (IntOp.shrsi .host (sg (ix2 (⟨k.val / 32, by omega⟩ : Fin 128) n)) (BitVec.ofNat 32 (k.val % 32))) 1#32 = _
  rw [shrsi_host_of_lt _ _ (k.val % 32) (shiftWord32_toNat _ (by omega)) (by omega)]
  rfl

/-- The magnitude at row `k`, column `n` is the magnitude of nibble `k mod 8` of word `(k / 8, n)`. -/
theorem mags_apply (qw : Vec Ideal S512x11008 .i32) (k : Fin 4096) (n : Fin 11008) :
    mags (F := Ideal) qw (ix2 k n)
      = magOf (F := Ideal) (nib (qw (ix2 (⟨k.val / 8, by omega⟩ : Fin 512) n)) (k.val % 8)) := by
  unfold mags
  rw [cast8_apply, gather16_apply]
  refine tbl_code _ (nib_lt _ _) _ ?_
  show min (broadcastInDim S512x8x11008x1 ![0, 1, 2] bcast_S512x8x11008_S512x8x11008x1_0_1_2 (codesNorm (F := Ideal) qw)
      (ix4 (⟨k.val / 8, by omega⟩ : Fin 512) (⟨k.val % 8, by omega⟩ : Fin 8) n (0 : Fin 1))).toInt.toNat 15 = _
  rw [unit4_apply]
  show min (Scalar.select
      (IntOp.cmpi .slt (codes (F := Ideal) qw (ix3 (⟨k.val / 8, by omega⟩ : Fin 512) (⟨k.val % 8, by omega⟩ : Fin 8) n)) 0#32)
      (IntOp.addi (codes (F := Ideal) qw (ix3 (⟨k.val / 8, by omega⟩ : Fin 512) (⟨k.val % 8, by omega⟩ : Fin 8) n)) 16#32)
      (codes (F := Ideal) qw (ix3 (⟨k.val / 8, by omega⟩ : Fin 512) (⟨k.val % 8, by omega⟩ : Fin 8) n))).toInt.toNat 15 = _
  rw [codes_apply]

theorem weights_apply (qw : Vec Ideal S512x11008 .i32) (sg : Vec Ideal S128x11008 .i32) (sc : Vec Ideal S1x11008 .f32)
    (k : Fin 4096) (n : Fin 11008) :
    (weights (F := Ideal) qw sg sc (ix2 k n) : EReal) = Wt qw sg sc k n := by
  have hs := sbits_apply sg k n
  have hm := mags_apply qw k n
  have hsc := scale_apply sc bcast_S1x11008_S4096x11008_0_1 k n
  unfold weights
  rw [select_apply]
  show Scalar.select (IntOp.cmpi .eq (sbits (F := Ideal) sg (ix2 k n)) 1#32)
      (FloatOps.hostNegf (scaled (F := Ideal) qw sc (ix2 k n))) (scaled (F := Ideal) qw sc (ix2 k n)) = _
  rw [Ideal.hostNegf_def, Ideal.negf_def]
  unfold scaled
  rw [mulf_apply, hs, hm, hsc, select_cmpi_eq]
  unfold Wt wt
  with_reducible rfl

end Cert.ReferenceIdeal.RefVal

end
-- ==== Proof.RefValue.lean ====
/-
  The reference's composed term is the specification's result, index by index over the extended reals: the host's
  matrix product is the sum over the one contracted axis; the two reshapes around it pair row 2048a + b with (a, b);
  the bias is broadcast along the last axis.
-/
import proofs.«404938_j16003048145696_2_alg».proof.Proof.RefWeights
import Idealize.ShloMosaic.PureOps.Ideal.Laws

noncomputable section

namespace Cert.ReferenceIdeal.RefVal

open Idealize.ShloMosaic Idealize.ShloMosaic.ValueIdx Cert.ReferenceIdeal Cert.ReferenceIdeal.Facts₀ Cert.Dequant

/-! ## The product's operand indices, axis by axis -/

theorem lhs_dot_S8192x4096_S4096x11008_S8192x11008_1_0_0_1_n_n_0 (j : S8192x11008.Idx)
    (k : dot_S8192x4096_S4096x11008_S8192x11008_1_0_0_1_n_n.contr.Idx) :
    (dot_S8192x4096_S4096x11008_S8192x11008_1_0_0_1_n_n.lhsIdx j k 0 : ℕ) = j 0 := by
  simp [DotDims.lhsIdx, dot_S8192x4096_S4096x11008_S8192x11008_1_0_0_1_n_n]; rfl

theorem lhs_dot_S8192x4096_S4096x11008_S8192x11008_1_0_0_1_n_n_1 (j : S8192x11008.Idx)
    (k : dot_S8192x4096_S4096x11008_S8192x11008_1_0_0_1_n_n.contr.Idx) :
    (dot_S8192x4096_S4096x11008_S8192x11008_1_0_0_1_n_n.lhsIdx j k 1 : ℕ) = k ⟨0, by decide⟩ := by
  simp [DotDims.lhsIdx, dot_S8192x4096_S4096x11008_S8192x11008_1_0_0_1_n_n]; rfl

theorem rhs_dot_S8192x4096_S4096x11008_S8192x11008_1_0_0_1_n_n_0 (j : S8192x11008.Idx)
    (k : dot_S8192x4096_S4096x11008_S8192x11008_1_0_0_1_n_n.contr.Idx) :
    (dot_S8192x4096_S4096x11008_S8192x11008_1_0_0_1_n_n.rhsIdx j k 0 : ℕ) = k ⟨0, by decide⟩ := by
  simp [DotDims.rhsIdx, dot_S8192x4096_S4096x11008_S8192x11008_1_0_0_1_n_n]; rfl

theorem rhs_dot_S8192x4096_S4096x11008_S8192x11008_1_0_0_1_n_n_1 (j : S8192x11008.Idx)
    (k : dot_S8192x4096_S4096x11008_S8192x11008_1_0_0_1_n_n.contr.Idx) :
    (dot_S8192x4096_S4096x11008_S8192x11008_1_0_0_1_n_n.rhsIdx j k 1 : ℕ) = j 1 := by
  simp [DotDims.rhsIdx, dot_S8192x4096_S4096x11008_S8192x11008_1_0_0_1_n_n]; rfl

/-- The host's matrix product at (r, n): the sum over the contracted coordinate of the entries' products. -/
theorem dot_apply (A : FVec Ideal S8192x4096 .f32) (B : FVec Ideal S4096x11008 .f32) (r : Fin 8192) (n : Fin 11008) :
    Host.dotGeneral (F := Ideal) dot_S8192x4096_S4096x11008_S8192x11008_1_0_0_1_n_n none A B (ix2 r n)
      = ∑ k : Fin 4096, A (ix2 r k) * B (ix2 k n) := by
  simp only [Host.dotGeneral]
  rw [Ideal.dotGeneral_apply,
    ← Equiv.sum_comp (contrEquiv1 dot_S8192x4096_S4096x11008_S8192x11008_1_0_0_1_n_n 4096 rfl rfl).symm]
  refine Finset.sum_congr rfl fun c _ => ?_
  have hc := contrEquiv1_symm_val dot_S8192x4096_S4096x11008_S8192x11008_1_0_0_1_n_n 4096 rfl rfl c
  have hl : dot_S8192x4096_S4096x11008_S8192x11008_1_0_0_1_n_n.lhsIdx (ix2 r n)
      ((contrEquiv1 dot_S8192x4096_S4096x11008_S8192x11008_1_0_0_1_n_n 4096 rfl rfl).symm c) = ix2 r c := by
    funext ax; apply Fin.ext
    match ax with
    | ⟨0, _⟩ => exact lhs_dot_S8192x4096_S4096x11008_S8192x11008_1_0_0_1_n_n_0 _ _
    | ⟨1, _⟩ => exact (lhs_dot_S8192x4096_S4096x11008_S8192x11008_1_0_0_1_n_n_1 _ _).trans hc
  have hr : dot_S8192x4096_S4096x11008_S8192x11008_1_0_0_1_n_n.rhsIdx (ix2 r n)
      ((contrEquiv1 dot_S8192x4096_S4096x11008_S8192x11008_1_0_0_1_n_n 4096 rfl rfl).symm c) = ix2 c n := by
    funext ax; apply Fin.ext
    match ax with
    | ⟨0, _⟩ => exact (rhs_dot_S8192x4096_S4096x11008_S8192x11008_1_0_0_1_n_n_0 _ _).trans hc
    | ⟨1, _⟩ => exact rhs_dot_S8192x4096_S4096x11008_S8192x11008_1_0_0_1_n_n_1 _ _
  rw [hl, hr]

/-! ## The two reshapes around the product, and the bias's broadcasts -/

/-- Row 2048a + b of the 8192 x 4096 layout of x is row (a, b) of x. -/
theorem x_rows_apply {α : Type} (x : S4x2048x4096.Idx → α) (a : Fin 4) (b : Fin 2048) (k : Fin 4096) :
    shapeCast S8192x4096 x shapeCasts_S4x2048x4096_S8192x4096
      (ix2 (⟨2048 * a.val + b.val, by omega⟩ : Fin 8192) k) = x (ix3 a b k) := by
  refine shapeCast_apply _ _ _ _ ?_
  rw [Shape.rowMajor_val_three, Shape.rowMajor_val_two]
  show (a.val * 2048 + b.val) * 4096 + k.val = (2048 * a.val + b.val) * 4096 + k.val
  omega

/-- Entry (a, b, n) of the 4 x 2048 x 11008 layout of a product is its entry (2048a + b, n). -/
theorem out_rows_apply {α : Type} (y : S8192x11008.Idx → α) (a : Fin 4) (b : Fin 2048) (n : Fin 11008) :
    shapeCast S4x2048x11008 y shapeCasts_S8192x11008_S4x2048x11008 (ix3 a b n)
      = y (ix2 (⟨2048 * a.val + b.val, by omega⟩ : Fin 8192) n) := by
  refine shapeCast_apply _ _ _ _ ?_
  rw [Shape.rowMajor_val_three, Shape.rowMajor_val_two]
  show (2048 * a.val + b.val) * 11008 + n.val = (a.val * 2048 + b.val) * 11008 + n.val
  omega

/-- The bias, broadcast along the last axis, reads its entry n at (a, b, n). -/
theorem bias_apply {α : Type} (bias : S11008.Idx → α) (a : Fin 4) (b : Fin 2048) (n : Fin 11008) :
    broadcastInDim S4x2048x11008 ![0, 1, 2] bcast_S1x1x11008_S4x2048x11008_0_1_2
      (broadcastInDim S1x1x11008 ![2] bcast_S11008_S1x1x11008_2 bias) (ix3 a b n) = bias (ix1 n) := by
  refine (broadcastInDim_apply _ _ _ (ix3 a b n) (ix3 (0 : Fin 1) (0 : Fin 1) n) (fun ax => ?_)).trans ?_
  · match ax with
    | ⟨0, _⟩ => rfl
    | ⟨1, _⟩ => rfl
    | ⟨2, _⟩ => rfl
  · refine broadcastInDim_apply _ _ _ _ (ix1 n) (fun ax => ?_)
    match ax with
    | ⟨0, _⟩ => rfl

theorem refTerm_eq (x : Vec Ideal S4x2048x4096 .f32) (qw : Vec Ideal S512x11008 .i32) (sg : Vec Ideal S128x11008 .i32)
    (sc : Vec Ideal S1x11008 .f32) (bias : Vec Ideal S11008 .f32) :
    refTerm (F := Ideal) x qw sg sc bias = Out x qw sg sc bias := by
  funext i
  obtain ⟨a, b, n, rfl⟩ : ∃ (a : Fin 4) (b : Fin 2048) (n : Fin 11008), i = ix3 a b n := ⟨i 0, i 1, i 2, eq_ix3 i⟩
  unfold refTerm
  rw [addf_apply, out_rows_apply, dot_apply, bias_apply]
  show _ = (∑ k : Fin 4096, x (ix3 a b k) * Wt qw sg sc k n) + bias (ix1 n)
  refine congrArg (· + bias (ix1 n)) (Finset.sum_congr rfl fun k _ => ?_)
  rw [x_rows_apply, weights_apply]

end Cert.ReferenceIdeal.RefVal

end
-- ==== Proof.lean ====
/-
  A linear layer whose 4096 x 11008 weight matrix is stored packed (4-bit codes of sixteen magnitudes, eight to a
  32-bit word; sign bits, thirty-two to a word; one scale per output column), computed two ways.

  The kernel walks a 43 x 8 grid: column block n of 256 columns, row block m of 1024 rows of x (x read as 8192 rows).
  At the first row block of each column block it unpacks that column block's weights once — for each nibble the
  sixteen-way selection of the magnitude, for each bit the sign factor -1 or 1, the planes interleaved so that row k
  takes nibble k mod 8 and bit k mod 32, then magnitude x sign x scale — into a scratch it keeps for the other seven
  row blocks; at every point it writes x-block times scratch plus the bias row to its output block. The reference
  unpacks the whole matrix on the host (the magnitude by a table lookup at the code, magnitude x scale, negated where
  the sign bit is 1) and multiplies once.

  Over the extended reals both are one function of the arguments (Proof/Spec.lean): at (a, b, n) the sum over k of
  x[a, b, k] times the weight at (k, n), plus bias[n]. The kernel's side reads its run's blocks (the scratch after
  every point is its column block's weights, by induction along the grid: a point that does not start a column block
  finds the scratch its predecessor left, and shares its column block); the reference's side reads its run's term.
  The two weights agree because the sign factor is exactly -1 or 1 and the table holds exactly the selection's
  values; the ideal pass rewrote nothing, so the idealization claim is trivial.
-/
import proofs.«404938_j16003048145696_2_alg».proof.Defs
import proofs.«404938_j16003048145696_2_alg».proof.Proof.Gen.Kernel
import proofs.«404938_j16003048145696_2_alg».proof.Proof.Gen.Kernel.Frame
import proofs.«404938_j16003048145696_2_alg».proof.Proof.Gen.KernelIdeal
import proofs.«404938_j16003048145696_2_alg».proof.Proof.Gen.KernelIdeal.Frame
import proofs.«404938_j16003048145696_2_alg».proof.Proof.Gen.ReferenceIdeal
import proofs.«404938_j16003048145696_2_alg».proof.Proof.Gen.Pre_finite_inputs
import proofs.«404938_j16003048145696_2_alg».proof.Proof.KValue
import proofs.«404938_j16003048145696_2_alg».proof.Proof.RefRun
import proofs.«404938_j16003048145696_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefVal.run (F := Ideal) m ρ)

/-- The ideal pass rewrote no operation. -/
theorem preserves : Cert.preserves_Kernel_KernelIdeal := trivial

/-- From arguments that agree, both runs end with the specification's result of those arguments. -/
theorem algebraic : Cert.algebraic_KernelIdeal_ReferenceIdeal := by
  intro m ρ m' ρ' _ hagree
  refine ⟨fun c => Cert.Dequant.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KVal.run m ρ, ?_⟩
  refine (θ_run Cert.ReferenceIdeal.defs _ _).mono (fun _ h c => ⟨(h c).1.trans ?_, (h c).2⟩)
    (Cert.ReferenceIdeal.RefVal.run (F := Ideal) m' ρ')
  rw [(hagree c).1, (hagree c).2.1, (hagree c).2.2.1, (hagree c).2.2.2.1, (hagree c).2.2.2.2]
  exact Cert.ReferenceIdeal.RefVal.refTerm_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
